-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S16x64x2 : Shape := ⟨3, ![16, 64, 2]⟩
abbrev S512x50000 : Shape := ⟨2, ![512, 50000]⟩
abbrev S512 : Shape := ⟨1, ![512]⟩
abbrev S_ : Shape := ⟨0, ![]⟩

class Facts : Prop where
  bcast_S_S512x50000 : S_.BroadcastsInDim S512x50000 (![] : Fin 0 → Fin S512x50000.rank)
  reducesTo_S512x50000_S_d0_1 : S512x50000.ReducesTo [0, 1] S_
  h_S_ : 0 < S_.numel
  bcast_S_S512 : S_.BroadcastsInDim S512 (![] : Fin 0 → Fin S512.rank)
  reducesTo_S512_S_d0 : S512.ReducesTo [0] S_
  bcast_S_S16x1024 : S_.BroadcastsInDim S16x1024 (![] : Fin 0 → Fin S16x1024.rank)
  reducesTo_S16x1024_S_d0_1 : S16x1024.ReducesTo [0, 1] S_
  bcast_S_S16x64x2 : S_.BroadcastsInDim S16x64x2 (![] : Fin 0 → Fin S16x64x2.rank)
  reducesTo_S16x64x2_S_d0_1_2 : S16x64x2.ReducesTo [0, 1, 2] S_

variable [Facts]

def fn_part1 {F : FTy → Type} [FloatOps F] (main_arg1 : IVec S16x64x2 32) (main_v15 : IVec S_ 1) (main_c_5 : IVec S_ 32) : IVec S_ 1 :=
  let main_v16 : IVec S16x64x2 32 := broadcastInDim S16x64x2 ![] bcast_S_S16x64x2 main_c_5
  let main_v17 : IVec S16x64x2 1 := cmpi .sge main_arg1 main_v16
  let main_c_6 : IVec S_ 1 := constantI S_ 1 1#1
  let main_v18 : IVec S_ 1 := (fun x v => Host.reduce IntOp.andi x v reducesTo_S16x64x2_S_d0_1_2 h_S_) main_v17 main_c_6
  let main_v19 : IVec S_ 1 := andi main_v15 main_v18
  main_v19

def fn {F : FTy → Type} [FloatOps F] (main_arg0 : IVec S16x1024 32) (main_arg1 : IVec S16x64x2 32) (main_arg2 : FVec F S512x50000 .f32) (main_arg3 : FVec F S512 .f32) : IVec S_ 1 :=
  let main_v0 : FVec F S512x50000 .f32 := Host.absf main_arg2
  let main_cst : FVec F S_ .f32 := constant S_ .f32 0x7F800000#32
  let main_v1 : FVec F S512x50000 .f32 := broadcastInDim S512x50000 ![] bcast_S_S512x50000 main_cst
  let main_v2 : IVec S512x50000 1 := cmpf .olt main_v0 main_v1
  let main_c : IVec S_ 1 := constantI S_ 1 1#1
  let main_v3 : IVec S_ 1 := (fun x v => Host.reduce IntOp.andi x v reducesTo_S512x50000_S_d0_1 h_S_) main_v2 main_c
  let main_v4 : FVec F S512 .f32 := Host.absf main_arg3
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_c_2 : IVec S_ 32 := constantI S_ 32 0#32
  let main_v9 : IVec S16x1024 32 := broadcastInDim S16x1024 ![] bcast_S_S16x1024 main_c_2
  let main_v10 : IVec S16x1024 1 := cmpi .sge main_arg0 main_v9
  let main_c_3 : IVec S_ 32 := constantI S_ 32 50000#32
  let main_v11 : IVec S16x1024 32 := broadcastInDim S16x1024 ![] bcast_S_S16x1024 main_c_3
  let main_v12 : IVec S16x1024 1 := cmpi .slt main_arg0 main_v11
  let main_v13 : IVec S16x1024 1 := andi main_v10 main_v12
  let main_c_4 : IVec S_ 1 := constantI S_ 1 1#1
  let main_v14 : IVec S_ 1 := (fun x v => Host.reduce IntOp.andi x v reducesTo_S16x1024_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16x1024 : Shape := ⟨2, ![16, 1024]⟩
abbrev S16x64x2 : Shape := ⟨3, ![16, 64, 2]⟩
abbrev S512x50000 : Shape := ⟨2, ![512, 50000]⟩
abbrev S512 : Shape := ⟨1, ![512]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S1024 : Shape := ⟨1, ![1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1 : Shape := ⟨1, ![1]⟩
abbrev S1x1x1 : Shape := ⟨3, ![1, 1, 1]⟩
abbrev S512x16x1024 : Shape := ⟨3, ![512, 16, 1024]⟩
abbrev S16x1024x512 : Shape := ⟨3, ![16, 1024, 512]⟩
abbrev S1x512 : Shape := ⟨2, ![1, 512]⟩
abbrev S16x64x512 : Shape := ⟨3, ![16, 64, 512]⟩
abbrev S1x64x2 : Shape := ⟨3, ![1, 64, 2]⟩
abbrev S1x1024x512 : Shape := ⟨3, ![1, 1024, 512]⟩
abbrev S1x64x512 : Shape := ⟨3, ![1, 64, 512]⟩
abbrev S64x2 : Shape := ⟨2, ![64, 2]⟩
abbrev S64x1 : Shape := ⟨2, ![64, 1]⟩
abbrev S1x1024 : Shape := ⟨2, ![1, 1024]⟩
abbrev S64x1024 : Shape := ⟨2, ![64, 1024]⟩
abbrev S1024x512 : Shape := ⟨2, ![1024, 512]⟩
abbrev S64x512 : Shape := ⟨2, ![64, 512]⟩

abbrev nBuf : Space → Nat
  | .hbm => 51
  | .vmem => 9
  | .smem => 0
  | _ => 0

abbrev bufTy : (tb : Table) → Fin (tcTables nBuf tb) → BufTy
  | .hbm, ⟨0, _⟩ => ⟨S16x1024, .i32⟩
  | .hbm, ⟨1, _⟩ => ⟨S16x64x2, .i32⟩
  | .hbm, ⟨2, _⟩ => ⟨S512x50000, .f32⟩
  | .hbm, ⟨3, _⟩ => ⟨S512, .f32⟩
  | .hbm, ⟨4, _⟩ => ⟨S16x1024x1, .i32⟩
  | .hbm, ⟨5, _⟩ => ⟨S16x1x1024, .i32⟩
  | .hbm, ⟨6, _⟩ => ⟨S16x1024x1024, .i32⟩
  | .hbm, ⟨7, _⟩ => ⟨S16x1024x1024, .i32⟩
  | .hbm, ⟨8, _⟩ => ⟨S16x1024x1024, .i1⟩
  | .hbm, ⟨9, _⟩ => ⟨S1024, .i32⟩
  | .hbm, ⟨10, _⟩ => ⟨S1x1024x1, .i32⟩
  | .hbm, ⟨11, _⟩ => ⟨S1x1x1024, .i32⟩
  | .hbm, ⟨12, _⟩ => ⟨S1x1024x1024, .i32⟩
  | .hbm, ⟨13, _⟩ => ⟨S1x1024x1024, .i32⟩
  | .hbm, ⟨14, _⟩ => ⟨S1x1024x1024, .i1⟩
  | .hbm, ⟨15, _⟩ => ⟨S16x1024x1024, .i1⟩
  | .hbm, ⟨16, _⟩ => ⟨S16x1024x1024, .i1⟩
  | .hbm, ⟨17, _⟩ => ⟨S_, .i32⟩
  | .hbm, ⟨18, _⟩ => ⟨S16x1024x1024, .i32⟩
  | .hbm, ⟨19, _⟩ => ⟨S16x1024x1024, .i32⟩
  | .hbm, ⟨20, _⟩ => ⟨S16x1024x1024, .i32⟩
  | .hbm, ⟨21, _⟩ => ⟨S_, .i32⟩
  | .hbm, ⟨22, _⟩ => ⟨S16x1024, .i32⟩
  | .hbm, ⟨23, _⟩ => ⟨S16x1x1024, .i32⟩
  | .hbm, ⟨24, _⟩ => ⟨S_, .i32⟩
  | .hbm, ⟨25, _⟩ => ⟨S16x1024, .i32⟩
  | .hbm, ⟨26, _⟩ => ⟨S16x1024, .i1⟩
  | .hbm, ⟨27, _⟩ => ⟨S_, .i32⟩
  | .hbm, ⟨28, _⟩ => ⟨S16x1024, .i32⟩
  | .hbm, ⟨29, _⟩ => ⟨S16x1024, .i32⟩
  | .hbm, ⟨30, _⟩ => ⟨S16x1024, .i32⟩
  | .hbm, ⟨31, _⟩ => ⟨S16x1024x1, .i32⟩
  | .hbm, ⟨32, _⟩ => ⟨S1, .i32⟩
  | .hbm, ⟨33, _⟩ => ⟨S_, .i32⟩
  | .hbm, ⟨34, _⟩ => ⟨S16x1024x1, .i32⟩
  | .hbm, ⟨35, _⟩ => ⟨S16x1024x1, .i1⟩
  | .hbm, ⟨36, _⟩ => ⟨S1x1x1, .i32⟩
  | .hbm, ⟨37, _⟩ => ⟨S16x1024x1, .i32⟩
  | .hbm, ⟨38, _⟩ => ⟨S16x1024x1, .i1⟩
  | .hbm, ⟨39, _⟩ => ⟨S16x1024x1, .i1⟩
  | .hbm, ⟨40, _⟩ => ⟨S_, .i1⟩
  | .hbm, ⟨41, _⟩ => ⟨S16x1024, .i1⟩
  | .hbm, ⟨42, _⟩ => ⟨S512x16x1024, .f32⟩
  | .hbm, ⟨43, _⟩ => ⟨S512x16x1024, .i1⟩
  | .hbm, ⟨44, _⟩ => ⟨S_, .f32⟩
  | .hbm, ⟨45, _⟩ => ⟨S512x16x1024, .f32⟩
  | .hbm, ⟨46, _⟩ => ⟨S512x16x1024, .f32⟩
  | .hbm, ⟨47, _⟩ => ⟨S16x1024x512, .f32⟩
  | .hbm, ⟨48, _⟩ => ⟨S16x1024x512, .bf16⟩
  | .hbm, ⟨49, _⟩ => ⟨S1x512, .f32⟩
  | .hbm, ⟨50, _⟩ => ⟨S16x64x512, .f32⟩
  | .local _ .vmem, ⟨0, _⟩ => ⟨S1x64x2, .i32⟩
  | .local _ .vmem, ⟨1, _⟩ => ⟨S1x64x2, .i32⟩
  | .local _ .vmem, ⟨2, _⟩ => ⟨S1x1x1024, .i32⟩
  | .local _ .vmem, ⟨3, _⟩ => ⟨S1x1x1024, .i32⟩
  | .local _ .vmem, ⟨4, _⟩ => ⟨S1x1024x512, .bf16⟩
  | .local _ .vmem, ⟨5, _⟩ => ⟨S1x1024x512, .bf16⟩
  | .local _ .vmem, ⟨6, _⟩ => ⟨S1x512, .f32⟩
  | .local _ .vmem, ⟨7, _⟩ => ⟨S1x64x512, .f32⟩
  | .local _ .vmem, ⟨8, _⟩ => ⟨S1x64x512, .f32⟩
  | _, _ => ⟨S16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S1024_S1x1024x1_1 : S1024.BroadcastsInDim S1x1024x1 (![1] : Fin 1 → Fin S1x1024x1.rank)
  bcast_S1024_S1x1x1024_2 : S1024.BroadcastsInDim S1x1x1024 (![2] : Fin 1 → Fin S1x1x1024.rank)
  bcast_S1x1x1024_S1x1024x1024_0_1_2 : S1x1x1024.BroadcastsInDim S1x1024x1024 (![0, 1, 2] : Fin 3 → Fin S1x1024x1024.rank)
  bcast_S1x1024x1_S1x1024x1024_0_1_2 : S1x1024x1.BroadcastsInDim S1x1024x1024 (![0, 1, 2] : Fin 3 → Fin S1x1024x1024.rank)
  bcast_S1x1024x1024_S16x1024x1024_0_1_2 : S1x1024x1024.BroadcastsInDim S16x1024x1024 (![0, 1, 2] : Fin 3 → Fin S16x1024x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  shapeCasts_S16x1024_S16x1x1024 : S16x1024.ShapeCasts S16x1x1024
  bcast_S_S16x1024 : S_.BroadcastsInDim S16x1024 (![] : Fin 0 → Fin S16x1024.rank)
  bcast_S_S16x1024x1 : S_.BroadcastsInDim S16x1024x1 (![] : Fin 0 → Fin S16x1024x1.rank)
  bcast_S1_S1x1x1_2 : S1.BroadcastsInDim S1x1x1 (![2] : Fin 1 → Fin S1x1x1.rank)
  bcast_S1x1x1_S16x1024x1_0_1_2 : S1x1x1.BroadcastsInDim S16x1024x1 (![0, 1, 2] : Fin 3 → Fin S16x1024x1.rank)
  reducesTo_S16x1024x1_S16x1024_d2 : S16x1024x1.ReducesTo [2] S16x1024
  bcast_S16x1024_S512x16x1024_1_2 : S16x1024.BroadcastsInDim S512x16x1024 (![1, 2] : Fin 2 → Fin S512x16x1024.rank)
  bcast_S_S512x16x1024 : S_.BroadcastsInDim S512x16x1024 (![] : Fin 0 → Fin S512x16x1024.rank)
  transposes_S512x16x1024_S16x1024x512_1_2_0 : S512x16x1024.Transposes [1, 2, 0] S16x1024x512
  bitsLt_bf16_f32 : FTy.bits .bf16 < FTy.bits .f32
  shapeCasts_S512_S1x512 : S512.ShapeCasts S1x512
  inb_S1x64x2_S1x64x2_0_0_0 : ∀ a, (![0, 0, 0] : Fin 3 → Nat) a + S1x64x2.size a ≤ S1x64x2.size a
  h_S1x64x2 : 0 < S1x64x2.numel
  shapeCasts_S1x64x2_S64x2 : S1x64x2.ShapeCasts S64x2
  slices_S64x2_o0_0_S64x1 : S64x2.Slices ![0, 0] S64x1
  slices_S64x2_o0_1_S64x1 : S64x2.Slices ![0, 1] S64x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  iota_S1x1024_d1_w32 : S1x1024.Iotas .tc 32 [1]
  broadcasts_S1x1024_S64x1024 : S1x1024.Broadcasts S64x1024
  broadcasts_S64x1_S64x1024 : S64x1.Broadcasts S64x1024
  natLt_1_32 : 1 < 32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S64x512 : S1x512.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  gather_S512x50000_S16x1024x1_S512x16x1024_0_1_n_n_1_2_5121_wf : GatherDims.WF S512x50000 S16x1024x1 S512x16x1024 [0] [1] [] [1] [] 2 ![512, 1]
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2.size a ≤ S16x64x2.size a
  hwx0_0 : ∀ i : grid0.Coords, EltTy.bits .i32 = 32 ∨ (Rect.block (s := S16x64x2) S1x64x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .i32 = 32 ∨ (Rect.block (s := S16x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S16x1024x512.size a
  hwx0_2 : ∀ i : grid0.Coords, EltTy.bits .bf16 = 32 ∨ (Rect.block (s := S16x1024x512) S1x1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S16x64x512.size a
  hwx0_4 : ∀ i : grid0.Coords, EltTy.bits .f32 = 32 ∨ (Rect.block (s := S16x64x512) S1x64x512.size (cc0_transform_4 i) (hinb0_4 i)).WholeWords (EltTy.packing .f32)

variable [Facts₀]

def gather_S512x50000_S16x1024x1_S512x16x1024_0_1_n_n_1_2_5121 : GatherDims S512x50000 S16x1024x1 S512x16x1024 where
  offsetDims := [0]
  collapsedSliceDims := [1]
  operandBatchingDims := []
  startIndicesBatchingDims := []
  startIndexMap := [1]
  indexVectorDim := 2
  sliceSizes := ![512, 1]
  wf := gather_S512x50000_S16x1024x1_S512x16x1024_0_1_n_n_1_2_5121_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_arg1) S1x64x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024 : Shape := ⟨2, ![16, 1024]⟩
abbrev S16x64x2 : Shape := ⟨3, ![16, 64, 2]⟩
abbrev S512x50000 : Shape := ⟨2, ![512, 50000]⟩
abbrev S512 : Shape := ⟨1, ![512]⟩
abbrev S1024 : Shape := ⟨1, ![1024]⟩
abbrev S16x64x1 : Shape := ⟨3, ![16, 64, 1]⟩
abbrev S16x64 : Shape := ⟨2, ![16, 64]⟩
abbrev S1x1x1024 : Shape := ⟨3, ![1, 1, 1024]⟩
abbrev S16x64x1024 : Shape := ⟨3, ![16, 64, 1024]⟩
abbrev S16x1x1024 : Shape := ⟨3, ![16, 1, 1024]⟩
abbrev S_ : Shape := ⟨0, ![]⟩
abbrev S16x64x50001 : Shape := ⟨3, ![16, 64, 50001]⟩
abbrev S16 : Shape := ⟨1, ![16]⟩
abbrev S16x1x1 : Shape := ⟨3, ![16, 1, 1]⟩
abbrev S64 : Shape := ⟨1, ![64]⟩
abbrev S1x64x1 : Shape := ⟨3, ![1, 64, 1]⟩
abbrev S16x64x1024x1 : Shape := ⟨4, ![16, 64, 1024, 1]⟩
abbrev S16x64x1024x3 : Shape := ⟨4, ![16, 64, 1024, 3]⟩
abbrev S16x64x50000 : Shape := ⟨3, ![16, 64, 50000]⟩
abbrev S16x64x512 : Shape := ⟨3, ![16, 64, 512]⟩
abbrev S1x1x512 : Shape := ⟨3, ![1, 1, 512]⟩

abbrev nBuf : Space → Nat
  | .hbm => 67
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S16x64x2, .i32⟩
  | .hbm, ⟨2, _⟩ => ⟨S512x50000, .f32⟩
  | .hbm, ⟨3, _⟩ => ⟨S512, .f32⟩
  | .hbm, ⟨4, _⟩ => ⟨S1024, .i32⟩
  | .hbm, ⟨5, _⟩ => ⟨S16x64x1, .i32⟩
  | .hbm, ⟨6, _⟩ => ⟨S16x64, .i32⟩
  | .hbm, ⟨7, _⟩ => ⟨S16x64x1, .i32⟩
  | .hbm, ⟨8, _⟩ => ⟨S16x64x1, .i32⟩
  | .hbm, ⟨9, _⟩ => ⟨S16x64, .i32⟩
  | .hbm, ⟨10, _⟩ => ⟨S16x64x1, .i32⟩
  | .hbm, ⟨11, _⟩ => ⟨S1x1x1024, .i32⟩
  | .hbm, ⟨12, _⟩ => ⟨S16x64x1024, .i32⟩
  | .hbm, ⟨13, _⟩ => ⟨S16x64x1024, .i32⟩
  | .hbm, ⟨14, _⟩ => ⟨S16x64x1024, .i1⟩
  | .hbm, ⟨15, _⟩ => ⟨S1x1x1024, .i32⟩
  | .hbm, ⟨16, _⟩ => ⟨S16x64x1024, .i32⟩
  | .hbm, ⟨17, _⟩ => ⟨S16x64x1024, .i32⟩
  | .hbm, ⟨18, _⟩ => ⟨S16x64x1024, .i1⟩
  | .hbm, ⟨19, _⟩ => ⟨S16x64x1024, .i1⟩
  | .hbm, ⟨20, _⟩ => ⟨S16x1x1024, .i32⟩
  | .hbm, ⟨21, _⟩ => ⟨S_, .i32⟩
  | .hbm, ⟨22, _⟩ => ⟨S_, .i32⟩
  | .hbm, ⟨23, _⟩ => ⟨S16x64x1024, .i32⟩
  | .hbm, ⟨24, _⟩ => ⟨S16x64x1024, .i32⟩
  | .hbm, ⟨25, _⟩ => ⟨S16x64x1024, .i32⟩
  | .hbm, ⟨26, _⟩ => ⟨S_, .f32⟩
  | .hbm, ⟨27, _⟩ => ⟨S16x64x50001, .f32⟩
  | .hbm, ⟨28, _⟩ => ⟨S16, .i32⟩
  | .hbm, ⟨29, _⟩ => ⟨S16x1x1, .i32⟩
  | .hbm, ⟨30, _⟩ => ⟨S64, .i32⟩
  | .hbm, ⟨31, _⟩ => ⟨S1x64x1, .i32⟩
  | .hbm, ⟨32, _⟩ => ⟨S_, .i32⟩
  | .hbm, ⟨33, _⟩ => ⟨S16x1x1, .i32⟩
  | .hbm, ⟨34, _⟩ => ⟨S16x1x1, .i1⟩
  | .hbm, ⟨35, _⟩ => ⟨S_, .i32⟩
  | .hbm, ⟨36, _⟩ => ⟨S16x1x1, .i32⟩
  | .hbm, ⟨37, _⟩ => ⟨S16x1x1, .i32⟩
  | .hbm, ⟨38, _⟩ => ⟨S16x1x1, .i32⟩
  | .hbm, ⟨39, _⟩ => ⟨S_, .i32⟩
  | .hbm, ⟨40, _⟩ => ⟨S1x64x1, .i32⟩
  | .hbm, ⟨41, _⟩ => ⟨S1x64x1, .i1⟩
  | .hbm, ⟨42, _⟩ => ⟨S_, .i32⟩
  | .hbm, ⟨43, _⟩ => ⟨S1x64x1, .i32⟩
  | .hbm, ⟨44, _⟩ => ⟨S1x64x1, .i32⟩
  | .hbm, ⟨45, _⟩ => ⟨S1x64x1, .i32⟩
  | .hbm, ⟨46, _⟩ => ⟨S_, .i32⟩
  | .hbm, ⟨47, _⟩ => ⟨S16x64x1024, .i32⟩
  | .hbm, ⟨48, _⟩ => ⟨S16x64x1024, .i1⟩
  | .hbm, ⟨49, _⟩ => ⟨S_, .i32⟩
  | .hbm, ⟨50, _⟩ => ⟨S16x64x1024, .i32⟩
  | .hbm, ⟨51, _⟩ => ⟨S16x64x1024, .i32⟩
  | .hbm, ⟨52, _⟩ => ⟨S16x64x1024, .i32⟩
  | .hbm, ⟨53, _⟩ => ⟨S16x64x1024, .i32⟩
  | .hbm, ⟨54, _⟩ => ⟨S16x64x1024, .i32⟩
  | .hbm, ⟨55, _⟩ => ⟨S16x64x1024x1, .i32⟩
  | .hbm, ⟨56, _⟩ => ⟨S16x64x1024x1, .i32⟩
  | .hbm, ⟨57, _⟩ => ⟨S16x64x1024x1, .i32⟩
  | .hbm, ⟨58, _⟩ => ⟨S16x64x1024x3, .i32⟩
  | .hbm, ⟨59, _⟩ => ⟨S_, .f32⟩
  | .hbm, ⟨60, _⟩ => ⟨S16x64x1024, .f32⟩
  | .hbm, ⟨61, _⟩ => ⟨S16x64x50001, .f32⟩
  | .hbm, ⟨62, _⟩ => ⟨S16x64x50000, .f32⟩
  | .hbm, ⟨63, _⟩ => ⟨S16x64x512, .f32⟩
  | .hbm, ⟨64, _⟩ => ⟨S1x1x512, .f32⟩
  | .hbm, ⟨65, _⟩ => ⟨S16x64x512, .f32⟩
  | .hbm, ⟨66, _⟩ => ⟨S16x64x512, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  slices_S16x64x2_S16x64x1_0_0_0 : S16x64x2.Slices ![0, 0, 0] S16x64x1
  shapeCasts_S16x64x1_S16x64 : S16x64x1.ShapeCasts S16x64
  bcast_S16x64_S16x64x1_0_1 : S16x64.BroadcastsInDim S16x64x1 (![0, 1] : Fin 2 → Fin S16x64x1.rank)
  slices_S16x64x2_S16x64x1_0_0_1 : S16x64x2.Slices ![0, 0, 1] S16x64x1
  bcast_S1024_S1x1x1024_2 : S1024.BroadcastsInDim S1x1x1024 (![2] : Fin 1 → Fin S1x1x1024.rank)
  bcast_S1x1x1024_S16x64x1024_0_1_2 : S1x1x1024.BroadcastsInDim S16x64x1024 (![0, 1, 2] : Fin 3 → Fin S16x64x1024.rank)
  bcast_S16x64x1_S16x64x1024_0_1_2 : S16x64x1.BroadcastsInDim S16x64x1024 (![0, 1, 2] : Fin 3 → Fin S16x64x1024.rank)
  bcast_S16x1024_S16x1x1024_0_2 : S16x1024.BroadcastsInDim S16x1x1024 (![0, 2] : Fin 2 → Fin S16x1x1024.rank)
  bcast_S16x1x1024_S16x64x1024_0_1_2 : S16x1x1024.BroadcastsInDim S16x64x1024 (![0, 1, 2] : Fin 3 → Fin S16x64x1024.rank)
  bcast_S_S16x64x1024 : S_.BroadcastsInDim S16x64x1024 (![] : Fin 0 → Fin S16x64x1024.rank)
  bcast_S_S16x64x50001 : S_.BroadcastsInDim S16x64x50001 (![] : Fin 0 → Fin S16x64x50001.rank)
  bcast_S16_S16x1x1_0 : S16.BroadcastsInDim S16x1x1 (![0] : Fin 1 → Fin S16x1x1.rank)
  bcast_S64_S1x64x1_1 : S64.BroadcastsInDim S1x64x1 (![1] : Fin 1 → Fin S1x64x1.rank)
  bcast_S_S16x1x1 : S_.BroadcastsInDim S16x1x1 (![] : Fin 0 → Fin S16x1x1.rank)
  bcast_S_S1x64x1 : S_.BroadcastsInDim S1x64x1 (![] : Fin 0 → Fin S1x64x1.rank)
  bcast_S16x1x1_S16x64x1024_0_1_2 : S16x1x1.BroadcastsInDim S16x64x1024 (![0, 1, 2] : Fin 3 → Fin S16x64x1024.rank)
  bcast_S1x64x1_S16x64x1024_0_1_2 : S1x64x1.BroadcastsInDim S16x64x1024 (![0, 1, 2] : Fin 3 → Fin S16x64x1024.rank)
  bcast_S16x64x1024_S16x64x1024x1_0_1_2 : S16x64x1024.BroadcastsInDim S16x64x1024x1 (![0, 1, 2] : Fin 3 → Fin S16x64x1024x1.rank)
  concatenates_S16x64x1024x1_S16x64x1024x1_S16x64x1024x1_S16x64x1024x3_d3 : Shape.Concatenates [S16x64x1024x1, S16x64x1024x1, S16x64x1024x1] S16x64x1024x3 3
  slices_S16x64x50001_S16x64x50000_0_0_0 : S16x64x50001.Slices ![0, 0, 0] S16x64x50000
  bcast_S512_S1x1x512_2 : S512.BroadcastsInDim S1x1x512 (![2] : Fin 1 → Fin S1x1x512.rank)
  bcast_S1x1x512_S16x64x512_0_1_2 : S1x1x512.BroadcastsInDim S16x64x512 (![0, 1, 2] : Fin 3 → Fin S16x64x512.rank)
  scatter_S16x64x50001_S16x64x1024x3_S16x64x1024_n_012_012_3_wf : ScatterDims.WF S16x64x50001 S16x64x1024x3 S16x64x1024 [] [0, 1, 2] [0, 1, 2] 3
  dot_S16x64x50000_S512x50000_S16x64x512_2_1_01_0_n_n_wf : DotDims.WF S16x64x50000 S512x50000 S16x64x512 [2] [1] [0, 1] [0] [] []

variable [Facts₀]

def scatter_S16x64x50001_S16x64x1024x3_S16x64x1024_n_012_012_3 : ScatterDims S16x64x50001 S16x64x1024x3 S16x64x1024 where
  updateWindowDims := []
  insertedWindowDims := [0, 1, 2]
  scatterDimsToOperandDims := [0, 1, 2]
  indexVectorDim := 3
  wf := scatter_S16x64x50001_S16x64x1024x3_S16x64x1024_n_012_012_3_wf
def dot_S16x64x50000_S512x50000_S16x64x512_2_1_01_0_n_n : DotDims S16x64x50000 S512x50000 S16x64x512 where
  lhsContracting := [2]
  rhsContracting := [1]
  lhsNonContracting := [0, 1]
  rhsNonContracting := [0]
  lhsBatch := []
  rhsBatch := []
  wf := dot_S16x64x50000_S512x50000_S16x64x512_2_1_01_0_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.BowSpec.lean ====
/-
  The words and weights both programs are read in.

  A document row `b` holds 1024 token words; span `s` of that row is a pair of words (start, end), compared SIGNED with a
  position word. Position `l` lies in the span when start ≤ l < end. The result at (b, s, d) is the sum of the weight
  column `W (d, v)` over the DISTINCT tokens `v` seen in the span, plus the bias at `d`.

  The reference makes the set of tokens explicit: a 0/1 vector over the vocabulary (one extra slot, index 50000, takes the
  positions outside the span and is cut off). The kernel instead keeps ONE position per distinct token: position `l`
  counts when it is in the span and the latest earlier position with the same token (`-1` if there is none) lies before
  the span's start — so `l` is the first position of the span holding its token.
-/
import Idealize.ShloMosaic.Lib.ValueIdx
import Idealize.ShloMosaic.PureOps.Ideal.Laws

noncomputable section

namespace Cert.Bow

open Idealize.ShloMosaic Idealize.ShloMosaic.ValueIdx

/-- Position `l` of a row as the 32-bit word the programs compare. -/
def posWord (l : Fin 1024) : BitVec 32 := BitVec.ofNat 32 l.val

/-- The bit "position `l` lies in the half-open span [i, j)", both ends read signed. -/
def inSpan (i j : BitVec 32) (l : Fin 1024) : BitVec 1 :=
  IntOp.andi (IntOp.cmpi .sge (posWord l) i) (IntOp.cmpi .slt (posWord l) j)

/-- The kernel's 0/1 weight of position `l` for a span [i, j), given the word `p` the kernel's table holds for `l`
    (the latest earlier position with the same token, or -1): in the span, and `p` before the span's start. -/
def weight (i j p : BitVec 32) (l : Fin 1024) : EReal :=
  FloatOps.sitofp (F := Ideal) .f32 ((IntOp.andi (inSpan i j l) (IntOp.cmpi .slt p i)).setWidth 32)

/-- The reference's scatter column for position `l`: the token word inside the span, the extra slot 50000 outside it,
    a negative word moved up by the padded vocabulary's size 50001. -/
def slotWord (i j tok : BitVec 32) (l : Fin 1024) : BitVec 32 :=
  Scalar.select (IntOp.cmpi .slt (Scalar.select (inSpan i j l) tok 50000#32) 0#32)
    (IntOp.addi (Scalar.select (inSpan i j l) tok 50000#32) 50001#32)
    (Scalar.select (inSpan i j l) tok 50000#32)

/-- The kernel's result as ONE function of the four arrays its region reads: the spans, the table of previous
    occurrences, the gathered weight rows and the bias row. -/
def kernelOut (sp : IVec ⟨3, ![16, 64, 2]⟩ 32) (prev : IVec ⟨3, ![16, 1, 1024]⟩ 32)
    (emb : FVec Ideal ⟨3, ![16, 1024, 512]⟩ .bf16) (bias : FVec Ideal ⟨2, ![1, 512]⟩ .f32) :
    FVec Ideal ⟨3, ![16, 64, 512]⟩ .f32 := fun y =>
  let b : Fin 16 := y 0
  let s : Fin 64 := y 1
  let d : Fin 512 := y 2
  (∑ l : Fin 1024, weight (sp (ix3 b s 0)) (sp (ix3 b s 1)) (prev (ix3 b 0 l)) l * emb (ix3 b l d)) + bias (ix2 0 d)

/-- The reference's result as ONE function of its arguments: the vocabulary sum of the 0/1 vector against the weights. -/
def referenceOut (ids : IVec ⟨2, ![16, 1024]⟩ 32) (sp : IVec ⟨3, ![16, 64, 2]⟩ 32)
    (W : FVec Ideal ⟨2, ![512, 50000]⟩ .f32) (bias : FVec Ideal ⟨1, ![512]⟩ .f32) :
    FVec Ideal ⟨3, ![16, 64, 512]⟩ .f32 := fun y =>
  let b : Fin 16 := y 0
  let s : Fin 64 := y 1
  let d : Fin 512 := y 2
  (∑ v : Fin 50000,
      (if ∃ l : Fin 1024, (slotWord (sp (ix3 b s 0)) (sp (ix3 b s 1)) (ids (ix2 b l)) l).toInt = (v.val : Int)
        then (1 : EReal) else 0) * W (ix2 d v)) + bias (ix1 d)

end Cert.Bow

end
-- ==== Proof.Payload.lean ====
/-
  What the kernel's body stores, entry by entry.

  At one grid point the body holds a block of spans (64 pairs of words), one row of the table of previous occurrences
  (1024 words), one row block of gathered weights (1024 × 512) and the bias row. It builds the 64 × 1024 matrix of 0/1
  weights — position `l` in span `s`, and the table word at `l` before the span's start — multiplies it into the gathered
  weights from a zero accumulator, and adds the bias row to every span's row. A change of float format is the identity
  on extended reals, so the entry at (s, d) is the sum over positions of weight × gathered entry, plus the bias at `d`.
-/
import proofs.«411660_j30631706755077_1_alg».proof.Proof.Gen.KernelIdeal.Skeleton
import proofs.«411660_j30631706755077_1_alg».proof.Proof.LibDotSum
import proofs.«411660_j30631706755077_1_alg».proof.Proof.BowSpec
import Idealize.ShloMosaic.Lib.ValueLayout
import Idealize.ShloMosaic.Lib.Pipeline.Value

noncomputable section

namespace Cert.Bow.Kernel

open Cert.KernelIdeal Cert.KernelIdeal.Gen Idealize.ShloMosaic Idealize.ShloMosaic.ValueIdx

/-- A column broadcast along the rows of an [a, b] matrix reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored block at (0, s, d): the weighted sum of the gathered entries of column `d` over the positions, plus the
    bias at `d`. -/
theorem payload_apply (x0 : Vec Ideal S1x64x2 .i32) (x1 : Vec Ideal S1x1x1024 .i32) (x2 : Vec Ideal S1x1024x512 .bf16)
    (x3 : Vec Ideal S1x512 .f32) (s : Fin 64) (d : Fin 512) :
    k0_pay1 (F := Ideal) x0 x1 x2 x3 (ix3 (0 : Fin 1) s d)
      = (∑ l : Fin 1024, Cert.Bow.weight (x0 (ix3 (0 : Fin 1) s (0 : Fin 2))) (x0 (ix3 (0 : Fin 1) s (1 : Fin 2)))
            (x1 (ix3 (0 : Fin 1) (0 : Fin 1) l)) l * x2 (ix3 (0 : Fin 1) l d))
        + x3 (ix2 (0 : Fin 1) d) := by
  unfold k0_pay1
  dsimp only
  rw [shapeCast_ab_1ab_apply, addf_apply,
    Cert.Lib.matmul_rc_apply dot_S64x1024_S1024x512_S64x512_1_0_0_1_n_n rfl rfl rfl rfl rfl rfl,
    broadcastTo_1b_ab_apply, shapeCast_a_1a_apply, shapeCast_1a_a_apply]
  refine congrArg (· + x3 (ix2 (0 : Fin 1) d)) (Finset.sum_congr rfl fun l _ => ?_)
  rw [truncf_apply, sitofp_apply, extui_apply, shapeCast_1ab_ab_apply]
  -- the four words the weight at (s, l) is made of
  have hpos : broadcastTo S64x1024 (iota Kind.tc S1x1024 32 [1] iota_S1x1024_d1_w32) broadcasts_S1x1024_S64x1024 (ix2 s l)
      = Cert.Bow.posWord l := by
    rw [broadcastTo_1b_ab_apply, iota_single_apply]; rfl
  have hstart : broadcastTo S64x1024 (extractStridedSlice S64x1 ![0, 0] (shapeCast S64x2 x0 shapeCasts_S1x64x2_S64x2)
      slices_S64x2_o0_0_S64x1) broadcasts_S64x1_S64x1024 (ix2 s l) = x0 (ix3 (0 : Fin 1) s (0 : Fin 2)) := by
    rw [broadcastTo_a1_ab_apply, slice2_axis1_apply 0 _ _ s (0 : Fin 1) (0 : Fin 2) rfl, shapeCast_1ab_ab_apply]
  have hend : broadcastTo S64x1024 (extractStridedSlice S64x1 ![0, 1] (shapeCast S64x2 x0 shapeCasts_S1x64x2_S64x2)
      slices_S64x2_o0_1_S64x1) broadcasts_S64x1_S64x1024 (ix2 s l) = x0 (ix3 (0 : Fin 1) s (1 : Fin 2)) := by
    rw [broadcastTo_a1_ab_apply, slice2_axis1_apply 1 _ _ s (0 : Fin 1) (1 : Fin 2) rfl, shapeCast_1ab_ab_apply]
  have hprev : broadcastTo S64x1024 (shapeCast S1x1024 x1 shapeCasts_S1x1x1024_S1x1024) broadcasts_S1x1024_S64x1024 (ix2 s l)
      = x1 (ix3 (0 : Fin 1) (0 : Fin 1) l) := by
    rw [broadcastTo_1b_ab_apply, shapeCast_1ab_ab_apply]
  simp only [andi, cmpi]
  rw [hpos, hstart, hend, hprev]
  rfl

end Cert.Bow.Kernel

end
-- ==== Proof.BlockReads.lean ====
/-
  The blocks a grid point reads, as rows of the arrays the region finds.

  The grid has 16 points, one per document row: point `t` stages block (t, 0, 0) of the spans, of the table of previous
  occurrences and of the gathered weights — row `t` of each — and block (0, 0) of the bias row. So an input block's entry
  (0, ·, ·) is the array's entry (t, ·, ·). The body's stored block of four blocks that are row `bb` of four arrays is row
  `bb` of the specification's `kernelOut` of those arrays.
-/
import proofs.«411660_j30631706755077_1_alg».proof.Proof.Gen.KernelIdeal.Value
import proofs.«411660_j30631706755077_1_alg».proof.Proof.Payload

noncomputable section

namespace Cert.Bow.Kernel

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem off3 : (![0, 0, 0] : Fin 3 → Nat) = fun _ => 0 := funext fun a => by fin_cases a <;> rfl
theorem off2 : (![0, 0] : Fin 2 → Nat) = fun _ => 0 := funext fun a => by fin_cases a <;> rfl

/-- The document row grid point `t` works on. -/
abbrev row (t : Fin cfg0.N) : Fin 16 := ⟨t.val, t.isLt⟩

/-- The result array as one function of the four arrays the region reads, as it finds them. -/
abbrev result (c : Dev nD) : FVec Ideal S16x64x512 .f32 :=
  Cert.Bow.kernelOut (V m c main_arg1) (V m c main_v15) (V m c main_v18) (V m c main_v19)

/-- The block index maps over the grid: the three row-blocked inputs and the output sit at block (t, 0, 0), the bias at
    block (0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The stored block of four input blocks that are row `bb` of four arrays is row `bb` of `kernelOut` of the arrays. -/
theorem stored_eq_row (sp : IVec S16x64x2 32) (prev : IVec S16x1x1024 32) (emb : FVec Ideal S16x1024x512 .bf16)
    (bias : FVec Ideal S1x512 .f32) (x0 : Vec Ideal S1x64x2 .i32) (x1 : Vec Ideal S1x1x1024 .i32)
    (x2 : Vec Ideal S1x1024x512 .bf16) (x3 : Vec Ideal S1x512 .f32) (bb : Fin 16)
    (h0 : ∀ (s : Fin 64) (k : Fin 2), x0 (ix3 (0 : Fin 1) s k) = sp (ix3 bb s k))
    (h1 : ∀ l : Fin 1024, x1 (ix3 (0 : Fin 1) (0 : Fin 1) l) = prev (ix3 bb (0 : Fin 1) l))
    (h2 : ∀ (l : Fin 1024) (d : Fin 512), x2 (ix3 (0 : Fin 1) l d) = emb (ix3 bb l d))
    (h3 : ∀ d : Fin 512, x3 (ix2 (0 : Fin 1) d) = bias (ix2 (0 : Fin 1) d)) (s : Fin 64) (d : Fin 512) :
    k0_pay1 (F := Ideal) x0 x1 x2 x3 (ix3 (0 : Fin 1) s d) = Cert.Bow.kernelOut sp prev emb bias (ix3 bb s d) := by
  rw [payload_apply, h0, h0, h3]
  show _ = (∑ l : Fin 1024, Cert.Bow.weight (sp (ix3 bb s 0)) (sp (ix3 bb s 1)) (prev (ix3 bb 0 l)) l * emb (ix3 bb l d))
      + bias (ix2 0 d)
  refine congrArg (· + bias (ix2 (0 : Fin 1) d)) (Finset.sum_congr rfl fun l _ => ?_)
  rw [h1, h2]

/-- Two spellings of one buffer name one array of the region-entry contents. -/
theorem V_congr (c : Dev nD) {r r' : Ref sig .tc} (e : r = r') : HEq (V m c r) (V m c r') := by
  subst e; rfl

/-- Block (t, 0, 0) of any [16, 64, 2] array, read at (0, s, k), is the array at (t, s, k). -/
theorem read_spans_block (A : IVec S16x64x2 32) (t : Fin cfg0.N) (s : Fin 64) (k : Fin 2) :
    ((cfg0.win 0).blk t).view.read (Elt Ideal) A (ix3 (0 : Fin 1) s k) = A (ix3 (row t) s k) := by
  obtain ⟨e0, e1, e2, -⟩ := block_index t
  have h : ((cfg0.win 0).blk t).view.emb (ix3 (0 : Fin 1) s k) = ix3 (row t) s k := by
    funext a; apply Fin.ext
    match a with
    | ⟨0, _⟩ => show win0_0.index t (0 : Fin 3) * 1 + 1 * 0 = t.val; omega
    | ⟨1, _⟩ => show win0_0.index t (1 : Fin 3) * 64 + 1 * s.val = s.val; omega
    | ⟨2, _⟩ => show win0_0.index t (2 : Fin 3) * 2 + 1 * k.val = k.val; omega
  show A (((cfg0.win 0).blk t).view.emb (ix3 (0 : Fin 1) s k)) = _
  rw [h]

/-- Block (t, 0, 0) of any [16, 1, 1024] array, read at (0, 0, l), is the array at (t, 0, l). -/
theorem read_prev_block (A : IVec S16x1x1024 32) (t : Fin cfg0.N) (l : Fin 1024) :
    ((cfg0.win 1).blk t).view.read (Elt Ideal) A (ix3 (0 : Fin 1) (0 : Fin 1) l) = A (ix3 (row t) (0 : Fin 1) l) := by
  obtain ⟨-, -, -, e0, e1, e2, -⟩ := block_index t
  have h : ((cfg0.win 1).blk t).view.emb (ix3 (0 : Fin 1) (0 : Fin 1) l) = ix3 (row t) (0 : Fin 1) l := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 1024 + 1 * l.val = l.val; omega
  show A (((cfg0.win 1).blk t).view.emb (ix3 (0 : Fin 1) (0 : Fin 1) l)) = _
  rw [h]

/-- Block (t, 0, 0) of any [16, 1024, 512] array, read at (0, l, d), is the array at (t, l, d). -/
theorem read_emb_block (A : FVec Ideal S16x1024x512 .bf16) (t : Fin cfg0.N) (l : Fin 1024) (d : Fin 512) :
    ((cfg0.win 2).blk t).view.read (Elt Ideal) A (ix3 (0 : Fin 1) l d) = A (ix3 (row t) l d) := by
  obtain ⟨-, -, -, -, -, -, e0, e1, e2, -⟩ := block_index t
  have h : ((cfg0.win 2).blk t).view.emb (ix3 (0 : Fin 1) l d) = ix3 (row t) l d := by
    funext a; apply Fin.ext
    match a with
    | ⟨0, _⟩ => show win0_2.index t (0 : Fin 3) * 1 + 1 * 0 = t.val; omega
    | ⟨1, _⟩ => show win0_2.index t (1 : Fin 3) * 1024 + 1 * l.val = l.val; omega
    | ⟨2, _⟩ => show win0_2.index t (2 : Fin 3) * 512 + 1 * d.val = d.val; omega
  show A (((cfg0.win 2).blk t).view.emb (ix3 (0 : Fin 1) l d)) = _
  rw [h]

/-- Block (0, 0) of any [1, 512] array, read at (0, d), is the array at (0, d). -/
theorem read_bias_block (A : FVec Ideal S1x512 .f32) (t : Fin cfg0.N) (d : Fin 512) :
    ((cfg0.win 3).blk t).view.read (Elt Ideal) A (ix2 (0 : Fin 1) d) = A (ix2 (0 : Fin 1) d) := by
  obtain ⟨-, -, -, -, -, -, -, -, -, e0, e1, -⟩ := block_index t
  have h : ((cfg0.win 3).blk t).view.emb (ix2 (0 : Fin 1) d) = ix2 (0 : Fin 1) d := by
    funext a; apply Fin.ext
    match a with
    | ⟨0, _⟩ => show win0_3.index t (0 : Fin 2) * 1 + 1 * 0 = 0; omega
    | ⟨1, _⟩ => show win0_3.index t (1 : Fin 2) * 512 + 1 * d.val = d.val; omega
  show A (((cfg0.win 3).blk t).view.emb (ix2 (0 : Fin 1) d)) = _
  rw [h]

/-- Point `t`'s block of the spans is row `t` of the span array. -/
theorem spans_block (c : Dev nD) (t : Fin cfg0.N) (s : Fin 64) (k : Fin 2) :
    iblk m c 0 t (ix3 (0 : Fin 1) s k) = V m c main_arg1 (ix3 (row t) s k) :=
  (read_spans_block (V m c (Pipeline.arrRef spec0 0)) t s k).trans
    (congrFun (eq_of_heq (V_congr m c (rfl : Pipeline.arrRef spec0 (0 : Fin 5) = main_arg1))) _)

/-- Point `t`'s block of the table of previous occurrences is row `t` of the table. -/
theorem prev_block (c : Dev nD) (t : Fin cfg0.N) (l : Fin 1024) :
    iblk m c 1 t (ix3 (0 : Fin 1) (0 : Fin 1) l) = V m c main_v15 (ix3 (row t) (0 : Fin 1) l) :=
  (read_prev_block (V m c (Pipeline.arrRef spec0 1)) t l).trans
    (congrFun (eq_of_heq (V_congr m c (rfl : Pipeline.arrRef spec0 (1 : Fin 5) = main_v15))) _)

/-- Point `t`'s block of the gathered weights is row `t` of that array. -/
theorem emb_block (c : Dev nD) (t : Fin cfg0.N) (l : Fin 1024) (d : Fin 512) :
    iblk m c 2 t (ix3 (0 : Fin 1) l d) = V m c main_v18 (ix3 (row t) l d) :=
  (read_emb_block (V m c (Pipeline.arrRef spec0 2)) t l d).trans
    (congrFun (eq_of_heq (V_congr m c (rfl : Pipeline.arrRef spec0 (2 : Fin 5) = main_v18))) _)

/-- Every point's block of the bias row is the bias row. -/
theorem bias_block (c : Dev nD) (t : Fin cfg0.N) (d : Fin 512) :
    iblk m c 3 t (ix2 (0 : Fin 1) d) = V m c main_v19 (ix2 (0 : Fin 1) d) :=
  (read_bias_block (V m c (Pipeline.arrRef spec0 3)) t d).trans
    (congrFun (eq_of_heq (V_congr m c (rfl : Pipeline.arrRef spec0 (3 : Fin 5) = main_v19))) _)

end Cert.Bow.Kernel

end
-- ==== Proof.Blocks.lean ====
/-
  From the blocks the grid points write to the whole result array.

  Point `t` writes back the body's stored block of its four input blocks, a [1, 64, 512] block at block index (t, 0, 0): that
  is block `t` of ONE whole-array function of the four arrays as the region finds them. The 16 row blocks cover the result
  array, so after the run the array IS that function.
-/
import proofs.«411660_j30631706755077_1_alg».proof.Proof.BlockReads

noncomputable section

namespace Cert.Bow.Kernel

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- WHAT POINT `t` WRITES BACK is block `t` of `result`. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero off3]
  simp only [View.ld_unit_zero (S := S1x64x2) off3, View.ld_unit_zero (S := S1x1x1024) off3,
    View.ld_unit_zero (S := S1x1024x512) off3, View.ld_unit_zero (S := S1x512) off2]
  refine funext fun (y : S1x64x512.Idx) => ?_
  obtain ⟨u, s, d, rfl⟩ : ∃ (u : Fin 1) (s : Fin 64) (d : Fin 512), y = ix3 u s d := ⟨y 0, y 1, y 2, eq_ix3 y⟩
  obtain rfl : u = 0 := Subsingleton.elim _ _
  obtain ⟨-, -, -, -, -, -, -, -, -, -, -, e0, e1, e2⟩ := block_index t
  have h : ((cfg0.win 4).blk t).view.emb (ix3 (0 : Fin 1) s d) = ix3 (row t) s d := by
    funext a; apply Fin.ext
    match a with
    | ⟨0, _⟩ => show win0_4.index t (0 : Fin 3) * 1 + 1 * 0 = t.val; omega
    | ⟨1, _⟩ => show win0_4.index t (1 : Fin 3) * 64 + 1 * s.val = s.val; omega
    | ⟨2, _⟩ => show win0_4.index t (2 : Fin 3) * 512 + 1 * d.val = d.val; omega
  show k0_pay1 (F := Ideal) (iblk m c 0 t) (iblk m c 1 t) (iblk m c 2 t) (iblk m c 3 t) (ix3 (0 : Fin 1) s d)
    = result m c (((cfg0.win 4).blk t).view.emb (ix3 (0 : Fin 1) s d))
  rw [h]
  exact stored_eq_row (V m c main_arg1) (V m c main_v15) (V m c main_v18) (V m c main_v19)
    (iblk m c 0 t) (iblk m c 1 t) (iblk m c 2 t) (iblk m c 3 t) (row t)
    (spans_block m c t) (prev_block m c t) (emb_block m c t) (bias_block m c t) s d

/-- An index of the result array is in point `t`'s block iff each coordinate is in the block's range on its axis. -/
theorem mem_block (t : Fin cfg0.N) (i : S16x64x512.Idx) :
    i ∈ ((cfg0.win 4).blk t).view.set ↔ ∀ a : Fin 3, win0_4.index t a * S1x64x512.size a ≤ (i a).val
      ∧ (i a).val < win0_4.index t a * S1x64x512.size a + S1x64x512.size a := by
  show i ∈ ((View.whole main_v20).slice (win0_4.rect t)).set ↔ _
  rw [View.set_slice_whole, Rect.mem_set_unit]
  exact Iff.rfl

/-- Every index of the result array lies in the block of the point of its row. -/
theorem covered (i : S16x64x512.Idx) :
    ∃ t : Fin cfg0.N, (cfg0.win 4).flush t = true ∧ i ∈ ((cfg0.win 4).blk t).view.set := by
  have hi0 : (i 0).val < 16 := (i 0).isLt
  have hi1 : (i 1).val < 64 := (i 1).isLt
  have hi2 : (i 2).val < 512 := (i 2).isLt
  let t : Fin cfg0.N := ⟨(i 0).val, hi0⟩
  obtain ⟨-, -, -, -, -, -, -, -, -, -, -, e0, e1, e2⟩ := block_index t
  have ht : t.val = (i 0).val := rfl
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega

/-- After the run the result array is `result`. -/
theorem final (c : Dev nD) : (dats m 0 c).arrAt 4 cfg0.N = result m c :=
  (dats m 0 c).arrAt_eq_of_cover 4 (result m c) (fun t _ => flushed_eq m c t) covered

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Bow.Kernel

end
-- ==== Proof.KernelPrev.lean ====
/-
  The kernel's table of previous occurrences, as the host operations before the region compute it.

  For row `b` and position `l` the host compares the token at `l` with the token at every position `l'`, keeps `l'` where the
  tokens are equal and `l' < l`, puts -1 elsewhere, and takes the signed maximum over `l'` from the least 32-bit integer.
  What the kernel uses of that word is one comparison: it is below a span start `i ≥ 0` exactly when every earlier position
  with the same token lies before `i`.
-/
import proofs.«411660_j30631706755077_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.Affine
import Idealize.ShloMosaic.PureOps.Reduce

noncomputable section

namespace Cert.Bow.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The stages of the host computation -/

/-- The token of (b, l) repeated along the last axis: element (b, l, l') is the token at (b, l). -/
private def tokAtRow (x0 : IVec S16x1024 32) : IVec S16x1024x1024 32 :=
  broadcastInDim S16x1024x1024 ![0, 1, 2] Gen.bcast_S16x1024x1_S16x1024x1024_0_1_2
    (broadcastInDim S16x1024x1 ![0, 1] Gen.bcast_S16x1024_S16x1024x1_0_1 x0)

/-- The token of (b, l') repeated along the middle axis: element (b, l, l') is the token at (b, l'). -/
private def tokAtCol (x0 : IVec S16x1024 32) : IVec S16x1024x1024 32 :=
  broadcastInDim S16x1024x1024 ![0, 1, 2] Gen.bcast_S16x1x1024_S16x1024x1024_0_1_2
    (broadcastInDim S16x1x1024 ![0, 2] Gen.bcast_S16x1024_S16x1x1024_0_2 x0)

/-- The positions 0 … 1023 laid along the last axis of a [1, 1, 1024] array. -/
private def posLast : IVec S1x1x1024 32 :=
  broadcastInDim S1x1x1024 ![2] Gen.bcast_S1024_S1x1x1024_2 (iotaInDim S1024 32 0)

/-- Element (0, l, l') is the bit "l' < l" of the two positions compared as signed words. -/
private def earlier : IVec S1x1024x1024 1 :=
  cmpi .slt
    (broadcastInDim S1x1024x1024 ![0, 1, 2] Gen.bcast_S1x1x1024_S1x1024x1024_0_1_2 posLast)
    (broadcastInDim S1x1024x1024 ![0, 1, 2] Gen.bcast_S1x1024x1_S1x1024x1024_0_1_2
      (broadcastInDim S1x1024x1 ![1] Gen.bcast_S1024_S1x1024x1_1 (iotaInDim S1024 32 0)))

/-- Element (b, l, l') is 1 exactly when the tokens at l and l' of row b agree and l' is earlier than l. -/
private def keep (x0 : IVec S16x1024 32) : IVec S16x1024x1024 1 :=
  andi (cmpi .eq (tokAtRow x0) (tokAtCol x0))
    (broadcastInDim S16x1024x1024 ![0, 1, 2] Gen.bcast_S1x1024x1024_S16x1024x1024_0_1_2 earlier)

/-- Element (b, l, l') is the position l' where it is kept and the word of all ones (-1) elsewhere. -/
private def cand (x0 : IVec S16x1024 32) : IVec S16x1024x1024 32 :=
  select (keep x0)
    (broadcastInDim S16x1024x1024 ![0, 1, 2] Gen.bcast_S1x1x1024_S16x1024x1024_0_1_2 posLast)
    (broadcastInDim S16x1024x1024 ![] Gen.bcast_S_S16x1024x1024 (constantI S_ 32 4294967295#32))

/-- Element (b, l) is the signed maximum of the candidates over l', from the least 32-bit integer. -/
private def prevFlat (x0 : IVec S16x1024 32) : IVec S16x1024 32 :=
  Host.reduce IntOp.maxsi (cand x0) (constantI S_ 32 2147483648#32) Gen.reducesTo_S16x1024x1024_S16x1024_d2 Gen.h_S_

/-- The table of previous occurrences as a function of the token array (the host operations' composed term). -/
def prevTable (x0 : IVec S16x1024 32) : IVec S16x1x1024 32 :=
  shapeCast S16x1x1024 (prevFlat x0) Gen.shapeCasts_S16x1024_S16x1x1024

/-- When the region is entered, the table's buffer holds `prevTable` of the token argument. -/
theorem V_prev (c : Dev nD) :
    (V m c main_v15 : IVec S16x1x1024 32) = prevTable (m ((c : Thread nD τ).loc main_arg0)) := by
  dsimp only [V]
  simp only [hostOps0, hostOps0_1, hostOps0_2, hostOps0_3, hostOps0_4, List.flatten_cons, List.flatten_nil, List.append_nil,
    List.cons_append, List.nil_append]
  after_results
  rfl

/-! ## The stages read at an index -/

private theorem tokAtRow_apply (x0 : IVec S16x1024 32) (b : Fin 16) (l l' : Fin 1024) :
    tokAtRow x0 (ix3 b l l') = x0 (ix2 b l) := by
  unfold tokAtRow
  refine (broadcastInDim_apply _ Gen.bcast_S16x1024x1_S16x1024x1024_0_1_2 _ (ix3 b l l') (ix3 b l (0 : Fin 1))
    (fun a => match a with
      | ⟨0, _⟩ => by show b.val = if (16 : Nat) = 1 then 0 else b.val; rw [if_neg (by decide)]
      | ⟨1, _⟩ => by show l.val = if (1024 : Nat) = 1 then 0 else l.val; rw [if_neg (by decide)]
      | ⟨2, _⟩ => by show 0 = if (1 : Nat) = 1 then 0 else l'.val; rw [if_pos rfl])).trans ?_
  exact broadcastInDim_apply _ Gen.bcast_S16x1024_S16x1024x1_0_1 x0 (ix3 b l (0 : Fin 1)) (ix2 b l)
    (fun a => match a with
      | ⟨0, _⟩ => by show b.val = if (16 : Nat) = 1 then 0 else b.val; rw [if_neg (by decide)]
      | ⟨1, _⟩ => by show l.val = if (1024 : Nat) = 1 then 0 else l.val; rw [if_neg (by decide)])

private theorem tokAtCol_apply (x0 : IVec S16x1024 32) (b : Fin 16) (l l' : Fin 1024) :
    tokAtCol x0 (ix3 b l l') = x0 (ix2 b l') := by
  unfold tokAtCol
  refine (broadcastInDim_apply _ Gen.bcast_S16x1x1024_S16x1024x1024_0_1_2 _ (ix3 b l l') (ix3 b (0 : Fin 1) l')
    (fun a => match a with
      | ⟨0, _⟩ => by show b.val = if (16 : Nat) = 1 then 0 else b.val; rw [if_neg (by decide)]
      | ⟨1, _⟩ => by show 0 = if (1 : Nat) = 1 then 0 else l.val; rw [if_pos rfl]
      | ⟨2, _⟩ => by show l'.val = if (1024 : Nat) = 1 then 0 else l'.val; rw [if_neg (by decide)])).trans ?_
  exact broadcastInDim_apply _ Gen.bcast_S16x1024_S16x1x1024_0_2 x0 (ix3 b (0 : Fin 1) l') (ix2 b l')
    (fun a => match a with
      | ⟨0, _⟩ => by show b.val = if (16 : Nat) = 1 then 0 else b.val; rw [if_neg (by decide)]
      | ⟨1, _⟩ => by show l'.val = if (1024 : Nat) = 1 then 0 else l'.val; rw [if_neg (by decide)])

private theorem posLast_apply (l' : Fin 1024) :
    posLast (ix3 (0 : Fin 1) (0 : Fin 1) l') = BitVec.ofNat 32 l'.val := by
  unfold posLast
  exact broadcastInDim_apply _ Gen.bcast_S1024_S1x1x1024_2 (iotaInDim S1024 32 0) (ix3 (0 : Fin 1) (0 : Fin 1) l') (ix1 l')
    (fun a => match a with
      | ⟨0, _⟩ => by show l'.val = if (1024 : Nat) = 1 then 0 else l'.val; rw [if_neg (by decide)])

private theorem earlier_apply (l l' : Fin 1024) :
    earlier (ix3 (0 : Fin 1) l l') = IntOp.cmpi .slt (BitVec.ofNat 32 l'.val) (BitVec.ofNat 32 l.val) := by
  unfold earlier
  show IntOp.cmpi .slt (broadcastInDim S1x1024x1024 ![0, 1, 2] Gen.bcast_S1x1x1024_S1x1024x1024_0_1_2 posLast (ix3 (0 : Fin 1) l l'))
      (broadcastInDim S1x1024x1024 ![0, 1, 2] Gen.bcast_S1x1024x1_S1x1024x1024_0_1_2
        (broadcastInDim S1x1024x1 ![1] Gen.bcast_S1024_S1x1024x1_1 (iotaInDim S1024 32 0)) (ix3 (0 : Fin 1) l l')) = _
  rw [broadcastInDim_apply _ Gen.bcast_S1x1x1024_S1x1024x1024_0_1_2 posLast (ix3 (0 : Fin 1) l l') (ix3 (0 : Fin 1) (0 : Fin 1) l')
      (fun a => match a with
        | ⟨0, _⟩ => by show 0 = if (1 : Nat) = 1 then 0 else 0; rw [if_pos rfl]
        | ⟨1, _⟩ => by show 0 = if (1 : Nat) = 1 then 0 else l.val; rw [if_pos rfl]
        | ⟨2, _⟩ => by show l'.val = if (1024 : Nat) = 1 then 0 else l'.val; rw [if_neg (by decide)]),
    posLast_apply,
    broadcastInDim_apply _ Gen.bcast_S1x1024x1_S1x1024x1024_0_1_2 _ (ix3 (0 : Fin 1) l l') (ix3 (0 : Fin 1) l (0 : Fin 1))
      (fun a => match a with
        | ⟨0, _⟩ => by show 0 = if (1 : Nat) = 1 then 0 else 0; rw [if_pos rfl]
        | ⟨1, _⟩ => by show l.val = if (1024 : Nat) = 1 then 0 else l.val; rw [if_neg (by decide)]
        | ⟨2, _⟩ => by show 0 = if (1 : Nat) = 1 then 0 else l'.val; rw [if_pos rfl]),
    broadcastInDim_apply _ Gen.bcast_S1024_S1x1024x1_1 (iotaInDim S1024 32 0) (ix3 (0 : Fin 1) l (0 : Fin 1)) (ix1 l)
      (fun a => match a with
        | ⟨0, _⟩ => by show l.val = if (1024 : Nat) = 1 then 0 else l.val; rw [if_neg (by decide)])]
  rfl

private theorem keep_apply (x0 : IVec S16x1024 32) (b : Fin 16) (l l' : Fin 1024) :
    keep x0 (ix3 b l l') = IntOp.andi (IntOp.cmpi .eq (x0 (ix2 b l)) (x0 (ix2 b l')))
      (IntOp.cmpi .slt (BitVec.ofNat 32 l'.val) (BitVec.ofNat 32 l.val)) := by
  unfold keep
  show IntOp.andi (IntOp.cmpi .eq (tokAtRow x0 (ix3 b l l')) (tokAtCol x0 (ix3 b l l')))
      (broadcastInDim S16x1024x1024 ![0, 1, 2] Gen.bcast_S1x1024x1024_S16x1024x1024_0_1_2 earlier (ix3 b l l')) = _
  rw [tokAtRow_apply, tokAtCol_apply,
    broadcastInDim_apply _ Gen.bcast_S1x1024x1024_S16x1024x1024_0_1_2 earlier (ix3 b l l') (ix3 (0 : Fin 1) l l')
      (fun a => match a with
        | ⟨0, _⟩ => by show 0 = if (1 : Nat) = 1 then 0 else b.val; rw [if_pos rfl]
        | ⟨1, _⟩ => by show l.val = if (1024 : Nat) = 1 then 0 else l.val; rw [if_neg (by decide)]
        | ⟨2, _⟩ => by show l'.val = if (1024 : Nat) = 1 then 0 else l'.val; rw [if_neg (by decide)]),
    earlier_apply]

private theorem cand_apply (x0 : IVec S16x1024 32) (b : Fin 16) (l l' : Fin 1024) :
    cand x0 (ix3 b l l') = Scalar.select (IntOp.andi (IntOp.cmpi .eq (x0 (ix2 b l)) (x0 (ix2 b l')))
      (IntOp.cmpi .slt (BitVec.ofNat 32 l'.val) (BitVec.ofNat 32 l.val))) (BitVec.ofNat 32 l'.val) 4294967295#32 := by
  unfold cand
  show Scalar.select (keep x0 (ix3 b l l'))
      (broadcastInDim S16x1024x1024 ![0, 1, 2] Gen.bcast_S1x1x1024_S16x1024x1024_0_1_2 posLast (ix3 b l l'))
      (broadcastInDim S16x1024x1024 ![] Gen.bcast_S_S16x1024x1024 (constantI S_ 32 4294967295#32) (ix3 b l l')) = _
  rw [keep_apply,
    broadcastInDim_apply _ Gen.bcast_S1x1x1024_S16x1024x1024_0_1_2 posLast (ix3 b l l') (ix3 (0 : Fin 1) (0 : Fin 1) l')
      (fun a => match a with
        | ⟨0, _⟩ => by show 0 = if (1 : Nat) = 1 then 0 else b.val; rw [if_pos rfl]
        | ⟨1, _⟩ => by show 0 = if (1 : Nat) = 1 then 0 else l.val; rw [if_pos rfl]
        | ⟨2, _⟩ => by show l'.val = if (1024 : Nat) = 1 then 0 else l'.val; rw [if_neg (by decide)]),
    posLast_apply,
    broadcastInDim_apply _ Gen.bcast_S_S16x1024x1024 (constantI S_ 32 4294967295#32) (ix3 b l l') ix0 (fun a => a.elim0)]
  rfl

/-! ## The signed maximum below a bound -/

/-- The signed maximum of two words is below a bound exactly when both are. -/
private theorem maxsi_toInt_lt_iff (x y : BitVec 32) (k : Int) :
    (IntOp.maxsi x y).toInt < k ↔ x.toInt < k ∧ y.toInt < k := by
  unfold IntOp.maxsi
  by_cases h : y.slt x = true
  · rw [if_pos h]; have := BitVec.slt_iff_toInt_lt.1 h; omega
  · rw [if_neg h]; have := mt BitVec.slt_iff_toInt_lt.2 h; omega

/-- A left fold by the signed maximum ends below a bound exactly when it started below it and met only words below it. -/
private theorem foldl_maxsi_toInt_lt_iff {ι : Type} (f : ι → BitVec 32) (k : Int) :
    ∀ (l : List ι) (init : BitVec 32),
      (l.foldl (fun r n => IntOp.maxsi r (f n)) init).toInt < k ↔ init.toInt < k ∧ ∀ n ∈ l, (f n).toInt < k
  | [], init => by simp
  | a :: l, init => by
    rw [List.foldl_cons, foldl_maxsi_toInt_lt_iff f k l, maxsi_toInt_lt_iff, List.forall_mem_cons, and_assoc]

/-! ## The reduction over the last axis -/

/-- Dropping the last axis of (b, l, l') leaves (b, l). -/
private theorem drop_ix3 (b : Fin 16) (l l' : Fin 1024) :
    Gen.reducesTo_S16x1024x1024_S16x1024_d2.drop (ix3 b l l') = ix2 b l := by
  funext a
  match a with
  | ⟨0, _⟩ => exact Fin.ext (Gen.reducesTo_S16x1024x1024_S16x1024_d2.drop_apply_val_of_eq (ix3 b l l') 0 0)
  | ⟨1, _⟩ => exact Fin.ext (Gen.reducesTo_S16x1024x1024_S16x1024_d2.drop_apply_val_of_eq (ix3 b l l') 1 1)

/-- The flat table's word at (b, l) is below a bound exactly when the least integer and every candidate of (b, l) are. -/
private theorem prevFlat_toInt_lt_iff (x0 : IVec S16x1024 32) (b : Fin 16) (l : Fin 1024) (k : Int) :
    (prevFlat x0 (ix2 b l)).toInt < k ↔
      (2147483648#32 : BitVec 32).toInt < k ∧ ∀ l' : Fin 1024, (cand x0 (ix3 b l l')).toInt < k := by
  unfold prevFlat
  rw [Host.reduce_eq_foldl, foldl_maxsi_toInt_lt_iff]
  refine and_congr Iff.rfl ⟨fun h l' => h _ ?_, fun h n hn => ?_⟩
  · rw [List.mem_filter]
    exact ⟨List.mem_map.2 ⟨S16x1024x1024.rowMajor (ix3 b l l'), List.mem_finRange _, Equiv.symm_apply_apply _ _⟩,
      decide_eq_true (drop_ix3 b l l')⟩
  · rw [List.mem_filter] at hn
    have hd := of_decide_eq_true hn.2
    obtain ⟨b', l1, l', rfl⟩ : ∃ (b' : Fin 16) (l1 : Fin 1024) (l' : Fin 1024), n = ix3 b' l1 l' :=
      ⟨n 0, n 1, n 2, eq_ix3 n⟩
    rw [drop_ix3] at hd
    have h0 : b' = b := congrFun hd 0
    have h1 : l1 = l := congrFun hd 1
    subst h0 h1
    exact h l'

/-- The table's word for (b, l) is below a non-negative word `i` exactly when every earlier position of row `b` holding the
    token of `l` is before `i`. -/
theorem prevTable_slt_iff (x0 : IVec S16x1024 32) (b : Fin 16) (l : Fin 1024) (i : BitVec 32) (hi : 0 ≤ i.toInt) :
    IntOp.cmpi .slt (prevTable x0 (ix3 b 0 l)) i = 1#1 ↔
      ∀ l' : Fin 1024, l'.val < l.val → x0 (ix2 b l') = x0 (ix2 b l) → (l'.val : Int) < i.toInt := by
  have hflat : prevTable x0 (ix3 b 0 l) = prevFlat x0 (ix2 b l) := by
    unfold prevTable
    exact shapeCast_apply (prevFlat x0) Gen.shapeCasts_S16x1024_S16x1x1024 (ix3 b 0 l) (ix2 b l)
      (by rw [Shape.rowMajor_val_two, Shape.rowMajor_val_three]
          show b.val * 1024 + l.val = (b.val * 1 + 0) * 1024 + l.val; omega)
  have hmin : (2147483648#32 : BitVec 32).toInt < i.toInt := by
    have : (2147483648#32 : BitVec 32).toInt = -2147483648 := by decide
    omega
  have hneg : (4294967295#32 : BitVec 32).toInt < i.toInt := by
    have : (4294967295#32 : BitVec 32).toInt = -1 := by decide
    omega
  rw [hflat, IntOp.cmpi_slt, prevFlat_toInt_lt_iff]
  refine ⟨fun h l' hl he => ?_, fun h => ⟨hmin, fun l' => ?_⟩⟩
  · have hc := h.2 l'
    have hl31 : l'.val < 2 ^ 31 := by have := l'.isLt; omega
    have hl31' : l.val < 2 ^ 31 := by have := l.isLt; omega
    have hk : IntOp.andi (IntOp.cmpi .eq (x0 (ix2 b l)) (x0 (ix2 b l')))
        (IntOp.cmpi .slt (BitVec.ofNat 32 l'.val) (BitVec.ofNat 32 l.val)) = 1#1 :=
      IntOp.andi_eq_one.2 ⟨IntOp.cmpi_eq.2 he.symm, IntOp.cmpi_slt.2 (by
        rw [StableHlo.Predicate.toInt_ofNat_small _ hl31, StableHlo.Predicate.toInt_ofNat_small _ hl31']; exact_mod_cast hl)⟩
    rw [cand_apply, hk, select_one, StableHlo.Predicate.toInt_ofNat_small _ hl31] at hc
    exact hc
  · rw [cand_apply]
    have hl31 : l'.val < 2 ^ 31 := by have := l'.isLt; omega
    have hl31' : l.val < 2 ^ 31 := by have := l.isLt; omega
    by_cases hk : IntOp.andi (IntOp.cmpi .eq (x0 (ix2 b l)) (x0 (ix2 b l')))
        (IntOp.cmpi .slt (BitVec.ofNat 32 l'.val) (BitVec.ofNat 32 l.val)) = 1#1
    · rw [hk, select_one, StableHlo.Predicate.toInt_ofNat_small _ hl31]
      obtain ⟨he, hlt⟩ := IntOp.andi_eq_one.1 hk
      have hlt' := IntOp.cmpi_slt.1 hlt
      rw [StableHlo.Predicate.toInt_ofNat_small _ hl31, StableHlo.Predicate.toInt_ofNat_small _ hl31'] at hlt'
      exact h l' (by exact_mod_cast hlt') (IntOp.cmpi_eq.1 he).symm
    · rw [eq_zero_of_ne_one hk, select_zero]
      exact hneg

end Cert.Bow.Kernel

end
-- ==== Proof.KernelEmb.lean ====
/-
  The gathered weight rows and the bias row the kernel's region reads, as the host operations before it compute them.

  The host takes column `tok` of the weights for every (row, position), fills with a not-a-number where the token word is
  not a vocabulary index, moves the feature axis last and changes the float format (the identity on extended reals). For
  a token word that IS a vocabulary index the entry at (b, l, d) is the weight `W (d, tok)`. The bias row is the bias
  vector laid out as one row.
-/
import proofs.«411660_j30631706755077_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.StableHlo.Predicate
import Idealize.ShloMosaic.PureOps.Reduce

noncomputable section

namespace Cert.Bow.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ### The host operations before the region, composed -/

/-- The looked-up position: a negative token word is moved up by the vocabulary size (the usual wrap of a negative
    index), any other word is kept. -/
private def tokPos (x0 : IVec S16x1024 32) : IVec S16x1024 32 :=
  select (cmpi .slt x0 (broadcastInDim S16x1024 ![] bcast_S_S16x1024 (constantI S_ 32 0#32)))
    (addi x0 (broadcastInDim S16x1024 ![] bcast_S_S16x1024 (constantI S_ 32 50000#32))) x0

/-- The positions with a trailing unit axis: the start indices of the gather. -/
private def tokStart (x0 : IVec S16x1024 32) : IVec S16x1024x1 32 :=
  broadcastInDim S16x1024x1 ![0, 1] bcast_S16x1024_S16x1024x1_0_1 (tokPos x0)

/-- Whether the position is a vocabulary index, `0 ≤ p ≤ 49999`, as a bit per (row, position): the conjunction over
    the trailing unit axis of the two comparisons. -/
private def tokOk (x0 : IVec S16x1024 32) : IVec S16x1024 1 :=
  Host.reduce IntOp.andi
    (andi
      (cmpi .sge (tokStart x0) (broadcastInDim S16x1024x1 ![] bcast_S_S16x1024x1 (constantI S_ 32 0#32)))
      (cmpi .sle (tokStart x0)
        (broadcastInDim S16x1024x1 ![0, 1, 2] bcast_S1x1x1_S16x1024x1_0_1_2
          (broadcastInDim S1x1x1 ![2] bcast_S1_S1x1x1_2 (constantI S1 32 49999#32)))))
    (constantI S_ 1 1#1) reducesTo_S16x1024x1_S16x1024_d2 h_S_

/-- The weights' column at each position, feature axis first. -/
private def tokCols (x0 : IVec S16x1024 32) (x2 : FVec Ideal S512x50000 .f32) : FVec Ideal S512x16x1024 .f32 :=
  Host.gather gather_S512x50000_S16x1024x1_S512x16x1024_0_1_n_n_1_2_5121 x2 (tokStart x0)

/-- The column where the position is a vocabulary index, a not-a-number elsewhere. -/
private def tokFill (x0 : IVec S16x1024 32) (x2 : FVec Ideal S512x50000 .f32) : FVec Ideal S512x16x1024 .f32 :=
  select (broadcastInDim S512x16x1024 ![1, 2] bcast_S16x1024_S512x16x1024_1_2 (tokOk x0)) (tokCols x0 x2)
    (broadcastInDim S512x16x1024 ![] bcast_S_S512x16x1024 (constant S_ .f32 0x7FC00000#32))

/-- The gathered weight rows as a function of the token array and the weights (the host operations' composed term). -/
def embTable (x0 : IVec S16x1024 32) (x2 : FVec Ideal S512x50000 .f32) : FVec Ideal S16x1024x512 .bf16 :=
  truncf .bf16 (transpose S16x1024x512 [1, 2, 0] (tokFill x0 x2) transposes_S512x16x1024_S16x1024x512_1_2_0) bitsLt_bf16_f32

open Idealize.ShloMosaic.StableHlo in
set_option maxRecDepth 65536 in
set_option maxHeartbeats 8000000 in
/-- When the region is entered, the gathered rows' buffer holds `embTable` of the token and weight arguments. -/
theorem V_emb (c : Dev nD) :
    (V m c main_v18 : FVec Ideal S16x1024x512 .bf16)
      = embTable (m ((c : Thread nD τ).loc main_arg0)) (m ((c : Thread nD τ).loc main_arg2)) := by
  dsimp only [V]
  simp only [hostOps0, hostOps0_1, hostOps0_2, hostOps0_3, hostOps0_4, List.flatten_cons, List.flatten_nil,
    List.append_nil, List.cons_append, List.nil_append]
  after_results_simp
  -- each buffer's contents pass through a change of type along an equation that holds by computation
  unfold embTable tokFill tokCols tokOk tokStart tokPos
  rfl

/-! ### The composed term read at an index, for a token word that is a vocabulary index -/

/-- A word below the vocabulary size is not negative as a signed word. -/
private theorem slt_zero_of_small {w : BitVec 32} (h : w.toNat < 50000) : IntOp.cmpi .slt w 0#32 = 0#1 :=
  eq_zero_of_ne_one fun e => by
    have := (StableHlo.Predicate.slt_iff_toNat (a := w) (b := 0#32) (by omega) (by decide)).mp e
    simp at this

/-- Such a word is its own looked-up position: the wrap of negatives leaves it. -/
private theorem tokPos_apply (x0 : IVec S16x1024 32) (b : Fin 16) (l : Fin 1024) (h : (x0 (ix2 b l)).toNat < 50000) :
    tokPos x0 (ix2 b l) = x0 (ix2 b l) := by
  show Scalar.select (IntOp.cmpi .slt (x0 (ix2 b l)) 0#32) (IntOp.addi (x0 (ix2 b l)) 50000#32) (x0 (ix2 b l)) = _
  rw [slt_zero_of_small h, select_zero]

/-- The start index at (b, l, ·) is the position at (b, l). -/
private theorem tokStart_apply (x0 : IVec S16x1024 32) (b : Fin 16) (l : Fin 1024) (z : Fin 1) :
    tokStart x0 (ix3 b l z) = tokPos x0 (ix2 b l) := by
  unfold tokStart
  exact broadcastInDim_apply _ bcast_S16x1024_S16x1024x1_0_1 (tokPos x0) (ix3 b l z) (ix2 b l) (fun a => match a with
    | ⟨0, _⟩ => by show b.val = if (16 : Nat) = 1 then 0 else b.val; rw [if_neg (by decide)]
    | ⟨1, _⟩ => by show l.val = if (1024 : Nat) = 1 then 0 else l.val; rw [if_neg (by decide)])

/-- A fold over an index set of one element combines that element with the initial value. -/
private theorem fold_univ_one {α : Type} (op : α → α → α) [Std.Commutative op] [Std.Associative op] (init : α) {n : Nat}
    (hn : n = 1) (f : Fin n → α) : (Finset.univ : Finset (Fin n)).fold op init f = op (f ⟨0, by omega⟩) init := by
  subst hn
  rw [Finset.univ_unique, Finset.fold_singleton]
  rfl

/-- The trailing unit axis is dropped from (b, l, 0): inserting its one coordinate into (b, l) gives (b, l, 0). -/
private theorem lift_unit (hR : S16x1024x1.Reduces [2] S16x1024) (b : Fin 16) (l : Fin 1024) (k : Fin (S16x1024x1.size 2)) :
    hR.lift (ix2 b l) k = ix3 b l (0 : Fin 1) := by
  funext a
  apply Fin.ext
  rw [hR.lift_val]
  match a with
  | ⟨0, _⟩ => rfl
  | ⟨1, _⟩ => rfl
  | ⟨2, _⟩ =>
    have hk : k.val < 1 := k.isLt
    show (if _ : (2 : Nat) = 2 then k.val else _) = 0
    rw [dif_pos rfl]; omega

/-- Both range comparisons hold for such a word, so the in-range bit at (b, l) is set. -/
private theorem tokOk_apply (x0 : IVec S16x1024 32) (b : Fin 16) (l : Fin 1024) (h : (x0 (ix2 b l)).toNat < 50000) :
    tokOk x0 (ix2 b l) = 1#1 := by
  have hR : S16x1024x1.Reduces [2] S16x1024 := by decide
  unfold tokOk
  rw [Host.reduce_eq_fold_single IntOp.andi _ _ reducesTo_S16x1024x1_S16x1024_d2 hR h_S_ (ix2 b l),
    fold_univ_one IntOp.andi _ (rfl : S16x1024x1.size 2 = 1), Function.comp_apply, lift_unit hR b l]
  show IntOp.andi
      (IntOp.andi (IntOp.cmpi .sge (tokStart x0 (ix3 b l 0)) 0#32) (IntOp.cmpi .sle (tokStart x0 (ix3 b l 0)) 49999#32))
      1#1 = 1#1
  rw [tokStart_apply, tokPos_apply x0 b l h,
    (StableHlo.Predicate.sge_iff_toNat (a := x0 (ix2 b l)) (b := 0#32) (by omega) (by decide)).mpr (Nat.zero_le _),
    (StableHlo.Predicate.sle_iff_toNat (a := x0 (ix2 b l)) (b := 49999#32) (by omega) (by decide)).mpr
      (by show _ ≤ 49999; omega)]
  rfl

/-- The start-indices index the gather reads for result index (d, b, l): (b, l, 0). -/
private theorem gather_siIdx (b : Fin 16) (l : Fin 1024) (d : Fin 512)
    (cpt : Fin gather_S512x50000_S16x1024x1_S512x16x1024_0_1_n_n_1_2_5121.startIndexMap.length) :
    gather_S512x50000_S16x1024x1_S512x16x1024_0_1_n_n_1_2_5121.siIdx (ix3 d b l) cpt = ix3 b l (0 : Fin 1) := by
  funext a
  apply Fin.ext
  match a with
  | ⟨0, _⟩ => rfl
  | ⟨1, _⟩ => rfl
  | ⟨2, _⟩ =>
    -- the index vector's axis: the component's number, and the start index has one component
    have hc : cpt.val < 1 := cpt.isLt
    show cpt.val = 0
    omega

/-- On the feature axis the gather reads the result's own feature coordinate: the axis is not started and is the
    window's offset axis. -/
private theorem gather_feat (idx : IVec S16x1024x1 32) (b : Fin 16) (l : Fin 1024) (d : Fin 512) :
    (gather_S512x50000_S16x1024x1_S512x16x1024_0_1_n_n_1_2_5121.operandIdx (ix3 d b l) idx 0).val = d.val := by
  have h0 : (0 : Fin 2) ∉ gather_S512x50000_S16x1024x1_S512x16x1024_0_1_n_n_1_2_5121.startIndexMap := by decide
  have hk : (0 : Fin 2) ∈ gather_S512x50000_S16x1024x1_S512x16x1024_0_1_n_n_1_2_5121.sKept := by decide
  show gather_S512x50000_S16x1024x1_S512x16x1024_0_1_n_n_1_2_5121.start (ix3 d b l) idx 0
      + gather_S512x50000_S16x1024x1_S512x16x1024_0_1_n_n_1_2_5121.batchCoord (ix3 d b l) 0
      + gather_S512x50000_S16x1024x1_S512x16x1024_0_1_n_n_1_2_5121.offCoord (ix3 d b l) 0 = d.val
  rw [GatherDims.batchCoord_eq_zero _ _ _ List.not_mem_nil, Nat.add_zero]
  unfold GatherDims.start GatherDims.offCoord
  rw [dif_neg h0, dif_pos hk, Nat.zero_add]
  rfl

/-- On the vocabulary axis the gather reads the start index's word, signed and clamped into the table; the axis is
    collapsed, so nothing is added to it. -/
private theorem gather_vocab (idx : IVec S16x1024x1 32) (b : Fin 16) (l : Fin 1024) (d : Fin 512) :
    (gather_S512x50000_S16x1024x1_S512x16x1024_0_1_n_n_1_2_5121.operandIdx (ix3 d b l) idx 1).val
      = min (idx (ix3 b l 0)).toInt.toNat (50000 - 1) := by
  have h1 : (1 : Fin 2) ∈ gather_S512x50000_S16x1024x1_S512x16x1024_0_1_n_n_1_2_5121.startIndexMap := by decide
  have hk : (1 : Fin 2) ∉ gather_S512x50000_S16x1024x1_S512x16x1024_0_1_n_n_1_2_5121.sKept := by decide
  show gather_S512x50000_S16x1024x1_S512x16x1024_0_1_n_n_1_2_5121.start (ix3 d b l) idx 1
      + gather_S512x50000_S16x1024x1_S512x16x1024_0_1_n_n_1_2_5121.batchCoord (ix3 d b l) 1
      + gather_S512x50000_S16x1024x1_S512x16x1024_0_1_n_n_1_2_5121.offCoord (ix3 d b l) 1 = _
  rw [GatherDims.batchCoord_eq_zero _ _ _ List.not_mem_nil, GatherDims.offCoord_eq_zero _ _ _ hk]
  show gather_S512x50000_S16x1024x1_S512x16x1024_0_1_n_n_1_2_5121.start (ix3 d b l) idx 1 = _
  unfold GatherDims.start
  rw [dif_pos h1, gather_siIdx]
  rfl

/-- The gathered column at (d, b, l) is the weight at (d, token): the clamp into the table leaves a vocabulary index. -/
private theorem tokCols_apply (x0 : IVec S16x1024 32) (x2 : FVec Ideal S512x50000 .f32) (b : Fin 16) (l : Fin 1024)
    (d : Fin 512) (h : (x0 (ix2 b l)).toNat < 50000) :
    tokCols x0 x2 (ix3 d b l) = x2 (ix2 d ⟨(x0 (ix2 b l)).toNat, h⟩) := by
  unfold tokCols Host.gather
  refine congrArg x2 (funext fun a => Fin.ext ?_)
  match a with
  | ⟨0, _⟩ => exact gather_feat (tokStart x0) b l d
  | ⟨1, _⟩ =>
    refine (gather_vocab (tokStart x0) b l d).trans ?_
    rw [tokStart_apply, tokPos_apply x0 b l h,
      StableHlo.Predicate.toInt_eq_toNat_of_lt (a := x0 (ix2 b l)) (by omega), Int.toNat_natCast]
    show min (x0 (ix2 b l)).toNat (50000 - 1) = (x0 (ix2 b l)).toNat
    omega

/-- The format change is the identity on extended reals and the transpose reads (d, b, l) for (b, l, d). -/
private theorem emb_read (y : FVec Ideal S512x16x1024 .f32) (b : Fin 16) (l : Fin 1024) (d : Fin 512) :
    (truncf .bf16 (transpose S16x1024x512 [1, 2, 0] y transposes_S512x16x1024_S16x1024x512_1_2_0) bitsLt_bf16_f32
        : FVec Ideal S16x1024x512 .bf16) (ix3 b l d) = y (ix3 d b l) :=
  (truncf_apply _ bitsLt_bf16_f32 (ix3 b l d)).trans
    (transpose_apply [1, 2, 0] y transposes_S512x16x1024_S16x1024x512_1_2_0 (ix3 b l d) (ix3 d b l)
      (fun a => match a with
        | ⟨0, _⟩ => rfl
        | ⟨1, _⟩ => rfl
        | ⟨2, _⟩ => rfl))

/-- A bit per (row, position) laid along the feature axis reads, at (d, b, l), the bit at (b, l). -/
private theorem ok_read (v : IVec S16x1024 1) (b : Fin 16) (l : Fin 1024) (d : Fin 512) :
    broadcastInDim S512x16x1024 ![1, 2] bcast_S16x1024_S512x16x1024_1_2 v (ix3 d b l) = v (ix2 b l) :=
  broadcastInDim_apply _ bcast_S16x1024_S512x16x1024_1_2 v (ix3 d b l) (ix2 b l) (fun a => match a with
    | ⟨0, _⟩ => by show b.val = if (16 : Nat) = 1 then 0 else b.val; rw [if_neg (by decide)]
    | ⟨1, _⟩ => by show l.val = if (1024 : Nat) = 1 then 0 else l.val; rw [if_neg (by decide)])

/-- For a token word that is a vocabulary index, the gathered entry at (b, l, d) is the weight at (d, token). -/
theorem embTable_apply (x0 : IVec S16x1024 32) (x2 : FVec Ideal S512x50000 .f32) (b : Fin 16) (l : Fin 1024)
    (d : Fin 512) (h : (x0 (ix2 b l)).toNat < 50000) :
    embTable x0 x2 (ix3 b l d) = x2 (ix2 d ⟨(x0 (ix2 b l)).toNat, h⟩) := by
  refine (emb_read (tokFill x0 x2) b l d).trans ?_
  -- the in-range bit at (b, l) is set, so the fill keeps the gathered column
  unfold tokFill
  rw [select_apply, ok_read, tokOk_apply x0 b l h, select_one, tokCols_apply x0 x2 b l d h]

open Idealize.ShloMosaic.StableHlo in
set_option maxRecDepth 65536 in
set_option maxHeartbeats 8000000 in
/-- When the region is entered, the bias row's buffer holds the bias argument as one row. -/
theorem V_bias (c : Dev nD) (d : Fin 512) :
    (V m c main_v19 : FVec Ideal S1x512 .f32) (ix2 0 d)
      = (m ((c : Thread nD τ).loc main_arg3) : FVec Ideal S512 .f32) (ix1 d) := by
  dsimp only [V]
  simp only [hostOps0, hostOps0_1, hostOps0_2, hostOps0_3, hostOps0_4, List.flatten_cons, List.flatten_nil,
    List.append_nil, List.cons_append, List.nil_append]
  after_results_simp
  -- a one-row layout of a vector keeps the row-major position: (0, d) is position d
  show shapeCast S1x512 (m ((c : Thread nD τ).loc main_arg3) : FVec Ideal S512 .f32) shapeCasts_S512_S1x512 (ix2 0 d) = _
  exact shapeCast_apply _ shapeCasts_S512_S1x512 (ix2 0 d) (ix1 d)
    (by rw [Shape.rowMajor_val_one, Shape.rowMajor_val_two]; show d.val = 0 * 512 + d.val; omega)

end Cert.Bow.Kernel

end
-- ==== Proof.SetScatter.lean ====
/-
  A scatter that WRITES (its body returns the update) one constant at every update index.

  The host's scatter is a left fold over the update indices in row-major order; an update whose target index leaves the
  operand is dropped. When every update carries the same value `c` and the body returns the update, the order of the fold
  does not matter: an element ends at `c` exactly when SOME update index targets it, and keeps the operand's value
  otherwise.

  For a point scatter into a rank-3 operand (no window axes, the three index components naming the three operand axes,
  the index vector on the last axis of the indices) the target of update index (p, q, r) is the triple of words the
  indices hold at (p, q, r, 0), (p, q, r, 1), (p, q, r, 2), each read signed.
-/
import Idealize.ShloMosaic.PureOps.ShapeOps
import Idealize.ShloMosaic.Lib.ValueIdx

namespace Cert.Bow

open Idealize.ShloMosaic Idealize.ShloMosaic.ValueIdx

/-- A left fold whose step overwrites with one constant `c` exactly the element its argument targets (and leaves every
    other element alone): afterwards an element targeted by some member of the list holds `c`, and an element targeted by
    none still holds its initial value. -/
private theorem foldl_overwrite_const {α β ι : Type} (g : β → Option ι) (c : α) (step : (ι → α) → β → (ι → α))
    (hhit : ∀ r n i, g n = some i → step r n i = c) (hmiss : ∀ r n i, g n ≠ some i → step r n i = r i)
    (L : List β) (r : ι → α) (i : ι) :
    ((∃ n ∈ L, g n = some i) → (L.foldl step r) i = c) ∧ ((¬ ∃ n ∈ L, g n = some i) → (L.foldl step r) i = r i) := by
  induction L generalizing r with
  | nil => exact ⟨fun ⟨n, hn, _⟩ => absurd hn (List.not_mem_nil), fun _ => rfl⟩
  | cons n L ih =>
    rw [List.foldl_cons]
    obtain ⟨ih1, ih2⟩ := ih (step r n)
    by_cases hL : ∃ m ∈ L, g m = some i
    · -- a later member targets the element: it is overwritten after whatever the head did
      refine ⟨fun _ => ih1 hL, fun hno => ?_⟩
      obtain ⟨m, hm, hgm⟩ := hL
      exact absurd ⟨m, List.mem_cons_of_mem _ hm, hgm⟩ hno
    · -- no later member targets it: the element is what the head's step left
      by_cases hn : g n = some i
      · refine ⟨fun _ => (ih2 hL).trans (hhit r n i hn), fun hno => ?_⟩
        exact absurd ⟨n, List.mem_cons_self, hn⟩ hno
      · refine ⟨fun ⟨m, hm, hgm⟩ => ?_, fun _ => (ih2 hL).trans (hmiss r n i hn)⟩
        rcases List.mem_cons.1 hm with rfl | hm'
        · exact absurd hgm hn
        · exact absurd ⟨m, hm', hgm⟩ hL

/-- An element of a constant-valued overwriting scatter is the constant where some update index lands on it, and the
    operand's element elsewhere. -/
theorem scatter_set_const {α : Type} {s si u : Shape} {w : Nat} (d : ScatterDims s si u) (x : s.Idx → α)
    (idx : IVec si w) (c : α) (i : s.Idx) :
    Host.scatter d (fun _ b => b) x idx (fun _ => c) i
      = if ∃ j : u.Idx, d.resultIdx? j idx = some i then c else x i := by
  unfold Host.scatter
  -- the fold's step, read at one element: the constant where the update index targets it, unchanged elsewhere
  have key := foldl_overwrite_const (α := α) (fun n : Fin u.numel => d.resultIdx? (u.rowMajor.symm n) idx) c
    (fun r n =>
      match d.resultIdx? (u.rowMajor.symm n) idx with
      | some i => fun i' => if i' = i then (fun _ b => b) (r i) ((fun _ => c) (u.rowMajor.symm n)) else r i'
      | none => r)
    (by
      intro r n i hn
      simp only [hn, if_true])
    (by
      intro r n i hn
      cases h : d.resultIdx? (u.rowMajor.symm n) idx with
      | none => rfl
      | some i0 =>
        have : i ≠ i0 := fun e => hn (by rw [h, e])
        simp only [if_neg this])
    (List.finRange u.numel) x i
  -- the row-major positions enumerate every update index
  by_cases h : ∃ j : u.Idx, d.resultIdx? j idx = some i
  · rw [if_pos h]
    obtain ⟨j, hj⟩ := h
    exact key.1 ⟨u.rowMajor j, List.mem_finRange _, by simpa using hj⟩
  · rw [if_neg h]
    exact key.2 fun ⟨n, _, hn⟩ => h ⟨u.rowMajor.symm n, hn⟩

/-- Where update index (p, q, r) of a rank-3 point scatter lands: at the three index words, read signed. -/
theorem resultIdx?_point3 {A B C P Q R w : Nat}
    (d : ScatterDims ⟨3, ![A, B, C]⟩ ⟨4, ![P, Q, R, 3]⟩ ⟨3, ![P, Q, R]⟩)
    (huw : d.updateWindowDims = []) (hiw : d.insertedWindowDims = [0, 1, 2])
    (hsd : d.scatterDimsToOperandDims = [0, 1, 2]) (hiv : d.indexVectorDim = 3)
    (idx : IVec ⟨4, ![P, Q, R, 3]⟩ w) (p : Fin P) (q : Fin Q) (r : Fin R) (a : Fin A) (b : Fin B) (c : Fin C) :
    d.resultIdx? (ix3 p q r) idx = some (ix3 a b c) ↔
      (idx (ix4 p q r 0)).toInt = (a.val : Int) ∧ (idx (ix4 p q r 1)).toInt = (b.val : Int)
        ∧ (idx (ix4 p q r 2)).toInt = (c.val : Int) := by
  -- with the four lists known the dimension numbers are a literal record (only the well-formedness proof stays abstract)
  obtain ⟨uw, iw, sd, iv, wf⟩ := d
  simp only at huw hiw hsd hiv
  subst huw hiw hsd hiv
  -- every operand axis is an inserted one, so no axis is kept and the window coordinate is 0 everywhere
  have hwin : ∀ k : Fin 3, ScatterDims.window (⟨[], [0, 1, 2], [0, 1, 2], 3, wf⟩ : ScatterDims ⟨3, ![A, B, C]⟩ ⟨4, ![P, Q, R, 3]⟩ ⟨3, ![P, Q, R]⟩) (ix3 p q r) k = 0 := by
    intro k
    unfold ScatterDims.window
    rw [dif_neg]
    intro h
    have h2 := (List.mem_filter.1 h).2
    revert h2
    fin_cases k <;> simp
  -- operand axis k is named by component k of the index vector, which sits on the indices' last axis: the start on
  -- axis k is the word at (p, q, r, k), read signed
  have hstart : ∀ k : Fin 3, ScatterDims.start (⟨[], [0, 1, 2], [0, 1, 2], 3, wf⟩ : ScatterDims ⟨3, ![A, B, C]⟩ ⟨4, ![P, Q, R, 3]⟩ ⟨3, ![P, Q, R]⟩) (ix3 p q r) idx k = (idx (ix4 p q r k)).toInt := by
    intro k
    unfold ScatterDims.start
    have hk : k ∈ ([0, 1, 2] : List (Fin 3)) := by fin_cases k <;> simp
    rw [dif_pos hk]
    refine congrArg BitVec.toInt (congrArg idx ?_)
    funext e
    fin_cases k <;> (fin_cases e <;> rfl)
  -- so the target coordinate on axis k, before the range test, is that signed word
  have hsum : ∀ k : Fin 3, ScatterDims.start (⟨[], [0, 1, 2], [0, 1, 2], 3, wf⟩ : ScatterDims ⟨3, ![A, B, C]⟩ ⟨4, ![P, Q, R, 3]⟩ ⟨3, ![P, Q, R]⟩) (ix3 p q r) idx k
      + (ScatterDims.window (⟨[], [0, 1, 2], [0, 1, 2], 3, wf⟩ : ScatterDims ⟨3, ![A, B, C]⟩ ⟨4, ![P, Q, R, 3]⟩ ⟨3, ![P, Q, R]⟩) (ix3 p q r) k : Int)
      = (idx (ix4 p q r k)).toInt := by
    intro k
    rw [hstart k, hwin k]
    simp
  unfold ScatterDims.resultIdx?
  constructor
  · -- the update lands at (a, b, c): every coordinate passed the range test, and a nonnegative integer is its own toNat
    intro h
    split at h
    · rename_i hb
      have h' := Option.some.inj h
      have hnn : ∀ k : Fin 3, 0 ≤ (idx (ix4 p q r k)).toInt := fun k => by
        rw [← hsum k]; exact (hb k).1
      have hv : ∀ k : Fin 3, ((idx (ix4 p q r k)).toInt).toNat = (ix3 a b c k).val := fun k => by
        rw [← hsum k]; exact congrArg Fin.val (congrFun h' k)
      have n0 := hnn 0
      have n1 := hnn 1
      have n2 := hnn 2
      have e0 : ((idx (ix4 p q r 0)).toInt).toNat = a.val := hv 0
      have e1 : ((idx (ix4 p q r 1)).toInt).toNat = b.val := hv 1
      have e2 : ((idx (ix4 p q r 2)).toInt).toNat = c.val := hv 2
      refine ⟨?_, ?_, ?_⟩ <;> omega
    · exact absurd h (by simp)
  · -- the three words are the coordinates of (a, b, c): each is in range, so the update is kept and lands there
    rintro ⟨h0, h1, h2⟩
    have hval : ∀ k : Fin 3, (idx (ix4 p q r k)).toInt = ((ix3 a b c k).val : Int) := by
      intro k
      fin_cases k
      · exact h0
      · exact h1
      · exact h2
    rw [dif_pos (fun k => by
      rw [hsum k, hval k]
      exact ⟨Int.natCast_nonneg _, Int.ofNat_lt.2 (ix3 a b c k).isLt⟩)]
    refine congrArg some (funext fun k => Fin.ext ?_)
    show (_ + _ : Int).toNat = _
    rw [hsum k, hval k]
    exact Int.toNat_natCast _

end Cert.Bow
-- ==== Proof.RefValue.lean ====
/-
  The reference's result, index by index.

  Its last operations are a vocabulary-wide product of the 0/1 vector with the weights plus the bias. The 0/1 vector is a
  scatter of ones into zeros over a vocabulary padded by one slot: the entry (b, s, v) is one exactly when some position
  `l` of row `b` has its scatter column equal to `v` — the token inside span `s`, the extra slot outside it. The row and span
  components of the scatter indices are the update's own row and span.
-/
import proofs.«411660_j30631706755077_1_alg».proof.Proof.Gen.ReferenceIdeal.Read
import proofs.«411660_j30631706755077_1_alg».proof.Proof.SetScatter
import proofs.«411660_j30631706755077_1_alg».proof.Proof.BowSpec
import Idealize.ShloMosaic.Lib.IdealHost
import Idealize.ShloMosaic.Lib.StableHlo.Predicate

noncomputable section

namespace Cert.Bow.Reference

open Cert.ReferenceIdeal Cert.ReferenceIdeal.Gen Cert.ReferenceIdeal.Read Idealize.ShloMosaic Idealize.ShloMosaic.TcCoe
open Idealize.ShloMosaic.ValueIdx

/-- The position word broadcast over rows and spans. -/
private theorem pos8 (p : Fin 16) (q : Fin 64) (r : Fin 1024) :
    val_main_v8 (F := Ideal) (ix3 p q r) = Cert.Bow.posWord r := by
  rw [val_main_v8_apply, val_main_v7_apply, val_main_v0_apply]
  rfl

/-- The same word, as the second comparison reads it. -/
private theorem pos12 (p : Fin 16) (q : Fin 64) (r : Fin 1024) :
    val_main_v12 (F := Ideal) (ix3 p q r) = Cert.Bow.posWord r := by
  rw [val_main_v12_apply, val_main_v11_apply, val_main_v0_apply]
  rfl

/-- The span's start word, through the slice, the reshape and the two broadcasts: row-major arithmetic on (p, q) gives
    back p and q. -/
private theorem spanLo (x1 : IVec S16x64x2 32) (p : Fin 16) (q : Fin 64) (r : Fin 1024) :
    val_main_v9 (F := Ideal) x1 (ix3 p q r) = x1 (ix3 p q 0) := by
  rw [val_main_v9_apply, val_main_v3_apply, val_main_v2_apply, val_main_v1_apply]
  congr 1
  funext a
  refine Fin.ext ?_
  match a with
  | ⟨0, _⟩ => show (p.val * 64 + q.val) / 64 = p.val; omega
  | ⟨1, _⟩ => show (p.val * 64 + q.val) / 1 % 64 = q.val; omega
  | ⟨2, _⟩ => rfl

/-- The span's end word, the same way. -/
private theorem spanHi (x1 : IVec S16x64x2 32) (p : Fin 16) (q : Fin 64) (r : Fin 1024) :
    val_main_v13 (F := Ideal) x1 (ix3 p q r) = x1 (ix3 p q 1) := by
  rw [val_main_v13_apply, val_main_v6_apply, val_main_v5_apply, val_main_v4_apply]
  congr 1
  funext a
  refine Fin.ext ?_
  match a with
  | ⟨0, _⟩ => show (p.val * 64 + q.val) / 64 = p.val; omega
  | ⟨1, _⟩ => show (p.val * 64 + q.val) / 1 % 64 = q.val; omega
  | ⟨2, _⟩ => rfl

/-- The token word of row p at position r, broadcast over the spans. -/
private theorem tokAt (x0 : IVec S16x1024 32) (p : Fin 16) (q : Fin 64) (r : Fin 1024) :
    val_main_call0_v1 (F := Ideal) x0 (ix3 p q r) = x0 (ix2 p r) := by
  rw [val_main_call0_v1_apply, val_main_v16_apply]
  congr 1
  funext a
  refine Fin.ext ?_
  match a with
  | ⟨0, _⟩ => rfl
  | ⟨1, _⟩ => rfl

/-- The column word before the wrap of negatives: the token inside the span, the extra slot outside. -/
private theorem v17At (x0 : IVec S16x1024 32) (x1 : IVec S16x64x2 32) (p : Fin 16) (q : Fin 64) (r : Fin 1024) :
    val_main_v17 (F := Ideal) x0 x1 (ix3 p q r)
      = Scalar.select (Cert.Bow.inSpan (x1 (ix3 p q 0)) (x1 (ix3 p q 1)) r) (x0 (ix2 p r)) 50000#32 := by
  rw [val_main_v17_apply, val_main_v15_apply, val_main_v10_apply, val_main_v14_apply, pos8, pos12, spanLo, spanHi,
    tokAt, val_main_call0_v2_apply, val_main_call0_v0_apply, val_main_c_apply]
  rfl

/-- The scatter column of update (p, q, r) is the specification's slot word. -/
private theorem v37At (x0 : IVec S16x1024 32) (x1 : IVec S16x64x2 32) (p : Fin 16) (q : Fin 64) (r : Fin 1024) :
    val_main_v37 (F := Ideal) x0 x1 (ix3 p q r)
      = Cert.Bow.slotWord (x1 (ix3 p q 0)) (x1 (ix3 p q 1)) (x0 (ix2 p r)) r := by
  rw [val_main_v37_apply, val_main_v34_apply, val_main_v36_apply, v17At, val_main_v33_apply, val_main_c_4_apply,
    val_main_v35_apply, val_main_c_5_apply]
  rfl

/-- A small number as a 32-bit word is not negative. -/
private theorem slt_zero_small (n : Nat) (hn : n < 2 ^ 31) :
    IntOp.cmpi .slt (BitVec.ofNat 32 n) 0#32 = 0#1 := by
  have h : (BitVec.ofNat 32 n).slt 0#32 = false := by
    rw [BitVec.slt, StableHlo.Predicate.toInt_ofNat_small n hn]
    simp
  show BitVec.ofBool ((BitVec.ofNat 32 n).slt 0#32) = 0#1
  rw [h]; rfl

/-- The scatter row of update (p, q, r) is the word of p. -/
private theorem v38At (p : Fin 16) (q : Fin 64) (r : Fin 1024) :
    val_main_v38 (F := Ideal) (ix3 p q r) = BitVec.ofNat 32 p.val := by
  rw [val_main_v38_apply, val_main_v27_apply, val_main_v24_apply, val_main_v20_apply, val_main_v19_apply,
    val_main_v23_apply, val_main_c_0_apply]
  show Scalar.select (IntOp.cmpi .slt (BitVec.ofNat 32 p.val) 0#32) _ _ = _
  rw [slt_zero_small p.val (by have := p.isLt; omega), select_zero]

/-- The scatter span of update (p, q, r) is the word of q. -/
private theorem v39At (p : Fin 16) (q : Fin 64) (r : Fin 1024) :
    val_main_v39 (F := Ideal) (ix3 p q r) = BitVec.ofNat 32 q.val := by
  rw [val_main_v39_apply, val_main_v32_apply, val_main_v29_apply, val_main_v22_apply, val_main_v21_apply,
    val_main_v28_apply, val_main_c_2_apply]
  show Scalar.select (IntOp.cmpi .slt (BitVec.ofNat 32 q.val) 0#32) _ _ = _
  rw [slt_zero_small q.val (by have := q.isLt; omega), select_zero]

/-- Dropping the unit axis of an index (p, q, r, 0) leaves (p, q, r). -/
private theorem idx40 (p : Fin 16) (q : Fin 64) (r : Fin 1024) (z : Fin 1) :
    idx_main_v40 (ix4 p q r z) = ix3 p q r :=
  funext fun a => match a with | ⟨0, _⟩ => rfl | ⟨1, _⟩ => rfl | ⟨2, _⟩ => rfl

/-- Off the joined axis a piece's index has the joined array's coordinates. -/
private theorem offAxis (p : Fin 16) (q : Fin 64) (r : Fin 1024) (k : Fin 3) (hr : S16x64x1024x1.rank = S16x64x1024x3.rank)
    (b : Fin S16x64x1024x1.rank) (hb : b.cast hr ≠ (3 : Fin S16x64x1024x3.rank)) :
    ((ix4 p q r (0 : Fin 1) : S16x64x1024x1.Idx) b).val = ((ix4 p q r k : S16x64x1024x3.Idx) (b.cast hr)).val := by
  match b with
  | ⟨0, _⟩ => rfl
  | ⟨1, _⟩ => rfl
  | ⟨2, _⟩ => rfl
  | ⟨3, _⟩ => exact (hb rfl).elim

/-- The index triple of update (p, q, r): its first word is the row. -/
private theorem v43At0 (x0 : IVec S16x1024 32) (x1 : IVec S16x64x2 32) (p : Fin 16) (q : Fin 64) (r : Fin 1024) :
    val_main_v43 (F := Ideal) x0 x1 (ix4 p q r 0) = BitVec.ofNat 32 p.val := by
  unfold val_main_v43
  refine (concatenate_apply_piece (3 : Fin S16x64x1024x3.rank) _ _ (ix4 p q r 0) 0 (by show (0 : Nat) < 3; omega) S16x64x1024x1
    (val_main_v40 (F := Ideal)) rfl rfl 0 rfl (ix4 p q r 0) (offAxis p q r 0 rfl) rfl).trans ?_
  rw [val_main_v40_apply, idx40, v38At]

/-- Its second word is the span. -/
private theorem v43At1 (x0 : IVec S16x1024 32) (x1 : IVec S16x64x2 32) (p : Fin 16) (q : Fin 64) (r : Fin 1024) :
    val_main_v43 (F := Ideal) x0 x1 (ix4 p q r 1) = BitVec.ofNat 32 q.val := by
  unfold val_main_v43
  refine (concatenate_apply_piece (3 : Fin S16x64x1024x3.rank) _ _ (ix4 p q r 1) 1 (by show (1 : Nat) < 3; omega) S16x64x1024x1
    (val_main_v41 (F := Ideal)) rfl rfl 1 rfl (ix4 p q r 0) (offAxis p q r 1 rfl) rfl).trans ?_
  rw [val_main_v41_apply]
  show val_main_v39 (F := Ideal) (idx_main_v40 (ix4 p q r 0)) = _
  rw [idx40, v39At]

/-- Its third word is the slot word of position r. -/
private theorem v43At2 (x0 : IVec S16x1024 32) (x1 : IVec S16x64x2 32) (p : Fin 16) (q : Fin 64) (r : Fin 1024) :
    val_main_v43 (F := Ideal) x0 x1 (ix4 p q r 2)
      = Cert.Bow.slotWord (x1 (ix3 p q 0)) (x1 (ix3 p q 1)) (x0 (ix2 p r)) r := by
  unfold val_main_v43
  refine (concatenate_apply_piece (3 : Fin S16x64x1024x3.rank) _ _ (ix4 p q r 2) 2 (by show (2 : Nat) < 3; omega) S16x64x1024x1
    (val_main_v42 (F := Ideal) x0 x1) rfl rfl 2 rfl (ix4 p q r 0) (offAxis p q r 2 rfl) rfl).trans ?_
  rw [val_main_v42_apply]
  show val_main_v37 (F := Ideal) x0 x1 (idx_main_v40 (ix4 p q r 0)) = _
  rw [idx40, v37At]

/-- The scattered updates are all the real one. -/
private theorem v44Const : val_main_v44 (F := Ideal) = fun _ => (1 : EReal) := by
  funext i
  rw [val_main_v44_apply, val_main_cst_6_apply]
  exact Ideal.ofBits_one_f32

/-- The scatter's operand is all the real zero. -/
private theorem v18Const : val_main_v18 (F := Ideal) = fun _ => (0 : EReal) := by
  funext i
  rw [val_main_v18_apply, val_main_cst_apply]
  exact Ideal.ofBits_zero_f32

/-- The 0/1 vector over the padded vocabulary: entry (b, s, v) is one exactly when some position of row b has slot word v.
    An update (p, q, r) lands on (b, s, v) only if its row and span words are those of b and s, which for such small
    numbers means p = b and q = s; so only the position r is left to choose. -/
private theorem v45At (x0 : IVec S16x1024 32) (x1 : IVec S16x64x2 32) (b : Fin 16) (s : Fin 64) (v : Fin 50001) :
    val_main_v45 (F := Ideal) x0 x1 (ix3 b s v)
      = if ∃ l : Fin 1024,
            (Cert.Bow.slotWord (x1 (ix3 b s 0)) (x1 (ix3 b s 1)) (x0 (ix2 b l)) l).toInt = (v.val : Int)
          then (1 : EReal) else 0 := by
  unfold val_main_v45
  rw [v44Const, v18Const, Cert.Bow.scatter_set_const]
  refine if_congr ?_ rfl rfl
  constructor
  · rintro ⟨j, hj⟩
    obtain ⟨p, q, r, rfl⟩ : ∃ (p : Fin 16) (q : Fin 64) (r : Fin 1024), j = ix3 p q r := ⟨j 0, j 1, j 2, eq_ix3 j⟩
    rw [Cert.Bow.resultIdx?_point3 _ rfl rfl rfl rfl, v43At0, v43At1, v43At2] at hj
    obtain ⟨h0, h1, h2⟩ := hj
    rw [StableHlo.Predicate.toInt_ofNat_small _ (by have := p.isLt; omega)] at h0
    rw [StableHlo.Predicate.toInt_ofNat_small _ (by have := q.isLt; omega)] at h1
    have hp : p = b := Fin.ext (by exact_mod_cast h0)
    have hq : q = s := Fin.ext (by exact_mod_cast h1)
    subst hp hq
    exact ⟨r, h2⟩
  · rintro ⟨l, hl⟩
    refine ⟨ix3 b s l, ?_⟩
    rw [Cert.Bow.resultIdx?_point3 _ rfl rfl rfl rfl, v43At0, v43At1, v43At2]
    exact ⟨StableHlo.Predicate.toInt_ofNat_small _ (by have := b.isLt; omega),
      StableHlo.Predicate.toInt_ofNat_small _ (by have := s.isLt; omega), hl⟩

/-- The product's left factor at (b, s, k) reads the padded vector at (b, s, k). -/
private theorem idx46 (b : Fin 16) (s : Fin 64) (d : Fin 512) (k : Fin 50000) :
    idx_main_v46 (lidx_main_v47 (ix3 b s d) k) = ix3 b s (⟨k.val, by have := k.isLt; omega⟩ : Fin 50001) :=
  funext fun a => match a with | ⟨0, _⟩ => rfl | ⟨1, _⟩ => rfl | ⟨2, _⟩ => rfl

/-- Its right factor reads the weights at (d, k). -/
private theorem ridx47 (b : Fin 16) (s : Fin 64) (d : Fin 512) (k : Fin 50000) :
    ridx_main_v47 (ix3 b s d) k = ix2 d k :=
  funext fun a => match a with | ⟨0, _⟩ => rfl | ⟨1, _⟩ => rfl

/-- The bias broadcast over rows and spans reads the bias at d. -/
private theorem idx4849 (b : Fin 16) (s : Fin 64) (d : Fin 512) :
    idx_main_v48 (idx_main_v49 (ix3 b s d)) = ix1 d :=
  funext fun a => match a with | ⟨0, _⟩ => rfl

/-- A conditional does not depend on how its condition is decided. -/
private theorem ite_decide_irrel {α : Type} (P : Prop) (i₁ i₂ : Decidable P) (a b : α) :
    @ite α P i₁ a b = @ite α P i₂ a b := by
  cases Subsingleton.elim i₁ i₂
  rfl

/-- The reference's last stage is the specification's function of the four arguments. -/
theorem reference_value (x0 : IVec S16x1024 32) (x1 : IVec S16x64x2 32) (x2 : FVec Ideal S512x50000 .f32)
    (x3 : FVec Ideal S512 .f32) :
    val_main_v50 (F := Ideal) x0 x1 x2 x3 = Cert.Bow.referenceOut x0 x1 x2 x3 := by
  funext y
  obtain ⟨b, s, d, rfl⟩ : ∃ (b : Fin 16) (s : Fin 64) (d : Fin 512), y = ix3 b s d := ⟨y 0, y 1, y 2, eq_ix3 y⟩
  unfold Cert.Bow.referenceOut
  dsimp only
  rw [val_main_v50_apply, val_main_v47_apply, val_main_v49_apply, val_main_v48_apply, idx4849]
  show (∑ k : Fin 50000, _) + _ = _
  refine congrArg₂ (· + ·) (Finset.sum_congr rfl fun k _ => congrArg₂ (· * ·) ?_ ?_) rfl
  · rw [val_main_v46_apply, idx46, v45At]
    exact ite_decide_irrel _ _ _ _ _
  · rw [ridx47]

end Cert.Bow.Reference

end
-- ==== Proof.PreDecode.lean ====
/-
  What the precondition says of the two integer inputs.

  The precondition is the conjunction of four `all`s: the two float inputs finite, every token word in [0, 50000) read
  signed, every span word non-negative read signed. From the conjunction being 1 this module reads off the last two, at
  an index: a token word is below 50000 as a natural number, a span word is non-negative as an integer.
-/
import proofs.«411660_j30631706755077_1_alg».proof.Pre_finite_inputs
import Idealize.ShloMosaic.Lib.ReduceAll
import Idealize.ShloMosaic.Lib.ValueIdx
import Idealize.ShloMosaic.Lib.StableHlo.Predicate

namespace Cert.Bow

open Idealize.ShloMosaic Idealize.ShloMosaic.ValueIdx

variable [Cert.Pre_finite_inputs.Facts]

/-- The rank-0 shape has one index: two of them agree at every axis because there is no axis. -/
private theorem scalar_idx_subsingleton : Subsingleton Cert.Pre_finite_inputs.S_.Idx :=
  ⟨fun _ _ => funext fun d => d.elim0⟩

/-- A constant array holds its word at every index. -/
private theorem const_read (c : BitVec 32) (i : Cert.Pre_finite_inputs.S_.Idx) :
    constantI Cert.Pre_finite_inputs.S_ 32 c i = c := rfl

/-- The word 0 read signed is 0. -/
private theorem toInt_zero32 : (0#32 : BitVec 32).toInt = 0 := by decide

/-- The word 50000 read signed is 50000: it is below 2³¹. -/
private theorem toInt_vocab32 : (50000#32 : BitVec 32).toInt = 50000 := by decide

/-- A 32-bit word whose signed value lies in [0, n) has that same value unsigned: a signed value is the unsigned one
    when the top bit is clear and the unsigned one less 2³², which is negative, otherwise; so non-negative forces the
    first case. -/
private theorem toNat_lt_of_toInt_range (w : BitVec 32) (n : Nat) (lo : 0 ≤ w.toInt) (hi : w.toInt < (n : Int)) :
    w.toNat < n := by
  rw [BitVec.toInt_eq_toNat_cond] at lo hi
  split at lo <;> omega

/-- Under the precondition every token word is a vocabulary index. -/
theorem ids_lt (x0 : IVec ⟨2, ![16, 1024]⟩ 32) (x1 : IVec ⟨3, ![16, 64, 2]⟩ 32)
    (x2 : FVec Ideal ⟨2, ![512, 50000]⟩ .f32) (x3 : FVec Ideal ⟨1, ![512]⟩ .f32)
    (h : Cert.Pre_finite_inputs.fn (F := Ideal) x0 x1 x2 x3 = fun _ => 1#1) (b : Fin 16) (l : Fin 1024) :
    (x0 (ix2 b l)).toNat < 50000 := by
  haveI := scalar_idx_subsingleton
  -- the precondition's one word, as the nested conjunction ((finite W ∧ finite b) ∧ ids in range) ∧ spans ≥ 0
  have h0 := congrFun h ix0
  dsimp only [Cert.Pre_finite_inputs.fn, Cert.Pre_finite_inputs.fn_part1] at h0
  -- its third conjunct: the `all` over the token array
  obtain ⟨h123, -⟩ := IntOp.andi_eq_one.1 h0
  obtain ⟨-, hall⟩ := IntOp.andi_eq_one.1 h123
  -- an `all` that is 1 is 1 at every element; here the element is (0 ≤ₛ id) ∧ (id <ₛ 50000)
  have e := Host.reduce_andi_all _ _ _ _ _ hall (ix2 b l)
  obtain ⟨e1, e2⟩ := IntOp.andi_eq_one.1 e
  have g1 := IntOp.cmpi_sge.1 e1
  have g2 := IntOp.cmpi_slt.1 e2
  -- the compared arrays are a scalar spread over the shape: they read 0 and 50000 everywhere
  rw [StableHlo.Predicate.bcast_scalar _ Cert.Pre_finite_inputs.Facts.h_S_, const_read] at g1 g2
  rw [toInt_zero32] at g1
  rw [toInt_vocab32] at g2
  exact toNat_lt_of_toInt_range _ 50000 g1 g2

/-- Under the precondition every span word is non-negative. -/
theorem span_nonneg (x0 : IVec ⟨2, ![16, 1024]⟩ 32) (x1 : IVec ⟨3, ![16, 64, 2]⟩ 32)
    (x2 : FVec Ideal ⟨2, ![512, 50000]⟩ .f32) (x3 : FVec Ideal ⟨1, ![512]⟩ .f32)
    (h : Cert.Pre_finite_inputs.fn (F := Ideal) x0 x1 x2 x3 = fun _ => 1#1) (b : Fin 16) (s : Fin 64) (k : Fin 2) :
    0 ≤ (x1 (ix3 b s k)).toInt := by
  haveI := scalar_idx_subsingleton
  have h0 := congrFun h ix0
  dsimp only [Cert.Pre_finite_inputs.fn, Cert.Pre_finite_inputs.fn_part1] at h0
  -- the last conjunct: the `all` over the span array, whose element is 0 ≤ₛ span
  obtain ⟨-, hall⟩ := IntOp.andi_eq_one.1 h0
  have e := Host.reduce_andi_all _ _ _ _ _ hall (ix3 b s k)
  have g := IntOp.cmpi_sge.1 e
  rw [StableHlo.Predicate.bcast_scalar _ Cert.Pre_finite_inputs.Facts.h_S_, const_read, toInt_zero32] at g
  exact g

end Cert.Bow
-- ==== Proof.FirstOcc.lean ====
/-
  Summing over the distinct tokens of a span is summing over the first position of each.

  Positions `l` carry a token `tok l`; `P l` says the position is selected. A token is PRESENT when some selected position
  carries it. Among the selected positions carrying one token there is a least one; call a selected position FIRST when no
  selected position before it carries the same token. Then `tok` maps the first positions one-to-one onto the present
  tokens, so a sum over present tokens of `f v` is the sum over first positions of `f (tok l)`, in any commutative monoid.
-/
import Idealize.ShloMosaic.Lib.ValueIdx

namespace Cert.Bow

/-- The sum of `f` over the tokens some selected position carries equals the sum of `f ∘ tok` over the selected positions
    that are the first to carry their token. -/
theorem sum_present_eq_sum_first {L V : ℕ} {M : Type*} [AddCommMonoid M] (tok : Fin L → Fin V) (P : Fin L → Prop)
    [DecidablePred P] (f : Fin V → M) :
    ∑ v : Fin V, (if ∃ l, P l ∧ tok l = v then f v else 0)
      = ∑ l : Fin L, (if P l ∧ ∀ l' : Fin L, l' < l → P l' → tok l' ≠ tok l then f (tok l) else 0) := by
  classical
  rw [← Finset.sum_filter, ← Finset.sum_filter]
  have himg : Finset.univ.filter (fun v : Fin V => ∃ l, P l ∧ tok l = v)
      = (Finset.univ.filter (fun l : Fin L => P l ∧ ∀ l' : Fin L, l' < l → P l' → tok l' ≠ tok l)).image tok := by
    ext v
    simp only [Finset.mem_filter, Finset.mem_univ, true_and, Finset.mem_image]
    constructor
    · rintro ⟨l, hl, rfl⟩
      -- the least selected position carrying the token of `l`
      have hne : (Finset.univ.filter (fun l' : Fin L => P l' ∧ tok l' = tok l)).Nonempty :=
        ⟨l, Finset.mem_filter.2 ⟨Finset.mem_univ _, hl, rfl⟩⟩
      have hmem := Finset.min'_mem _ hne
      simp only [Finset.mem_filter, Finset.mem_univ, true_and] at hmem
      refine ⟨_, ⟨hmem.1, fun l' hlt hP' heq => ?_⟩, hmem.2⟩
      have hin : l' ∈ Finset.univ.filter (fun l' : Fin L => P l' ∧ tok l' = tok l) := by
        simp only [Finset.mem_filter, Finset.mem_univ, true_and]; exact ⟨hP', heq.trans hmem.2⟩
      exact absurd (Finset.min'_le _ _ hin) (not_le.2 hlt)
    · rintro ⟨l, ⟨hl, _⟩, rfl⟩
      exact ⟨l, hl, rfl⟩
  rw [himg, Finset.sum_image]
  -- two first positions with one token coincide: neither is before the other
  intro l1 h1 l2 h2 heq
  simp only [Finset.mem_filter, Finset.mem_univ, true_and, Finset.coe_filter, Set.mem_setOf_eq] at h1 h2
  rcases lt_trichotomy l1 l2 with hlt | heq' | hgt
  · exact absurd heq (h2.2 l1 hlt h1.1)
  · exact heq'
  · exact absurd heq.symm (h1.2 l2 hgt h2.1)

end Cert.Bow
-- ==== Proof.Bridge.lean ====
/-
  The kernel's function and the reference's function are one function.

  Fix a row `b`, a span `s` with start word `i ≥ 0` and end word `j`, and a feature `d`. Every token word is a vocabulary index.
  • The reference's 0/1 entry at token `v` is one exactly when some position IN the span carries `v`: inside the span the
    scatter column is the token itself (it is non-negative, so it is not moved), outside it is the extra slot 50000, which
    is no vocabulary index.
  • The kernel's weight of position `l` is one exactly when `l` is in the span and every earlier position with the same
    token lies before `i`. For `l` in the span an earlier position lies before `i` exactly when it is NOT in the span (it
    is before `l`, hence before the end). So the weight is one exactly at the first position of the span for its token.
  • A 0/1 factor times a weight is the weight or zero, and the gathered row at `l` is the weight column of the token at `l`.
  The two sums are then the sum over present tokens and the sum over first positions, equal in any commutative monoid —
  no finiteness is used. The biases agree entry by entry.
-/
import proofs.«411660_j30631706755077_1_alg».proof.Proof.BowSpec
import proofs.«411660_j30631706755077_1_alg».proof.Proof.FirstOcc
import Idealize.ShloMosaic.Lib.StableHlo.Predicate
import Idealize.ShloMosaic.Lib.ReduceAll

noncomputable section

namespace Cert.Bow

open Idealize.ShloMosaic Idealize.ShloMosaic.ValueIdx

/-- A position word reads, signed, as the position. -/
theorem posWord_toInt (l : Fin 1024) : (posWord l).toInt = (l.val : Int) :=
  StableHlo.Predicate.toInt_ofNat_small l.val (by have := l.isLt; omega)

/-- The span bit is set exactly when start ≤ l < end as integers. -/
theorem inSpan_iff (i j : BitVec 32) (l : Fin 1024) :
    inSpan i j l = 1#1 ↔ i.toInt ≤ (l.val : Int) ∧ (l.val : Int) < j.toInt := by
  unfold inSpan
  rw [IntOp.andi_eq_one]
  unfold IntOp.cmpi
  simp only [StableHlo.Predicate.ofBool_eq_one_iff]
  rw [BitVec.sle_iff_toInt_le, BitVec.slt_iff_toInt_lt, posWord_toInt]

/-- The conjunction of two bits, widened and read as a number, is 1 when both are set and 0 otherwise. -/
theorem sitofp_andi_bits (x y : BitVec 1) :
    FloatOps.sitofp (F := Ideal) .f32 ((IntOp.andi x y).setWidth 32) = if x = 1#1 ∧ y = 1#1 then (1 : EReal) else 0 := by
  show ((((IntOp.andi x y).setWidth 32).toInt : ℝ) : EReal) = _
  rcases BitVec.eq_zero_or_eq_one x with rfl | rfl <;> rcases BitVec.eq_zero_or_eq_one y with rfl | rfl
  · rw [show (IntOp.andi 0#1 0#1).setWidth 32 = 0#32 by decide, if_neg (by decide)]; simp
  · rw [show (IntOp.andi 0#1 1#1).setWidth 32 = 0#32 by decide, if_neg (by decide)]; simp
  · rw [show (IntOp.andi 1#1 0#1).setWidth 32 = 0#32 by decide, if_neg (by decide)]; simp
  · rw [show (IntOp.andi 1#1 1#1).setWidth 32 = 1#32 by decide, if_pos (by decide)]; simp

/-- The kernel's weight is 1 when the position is in the span and the table word is before the start, else 0. -/
theorem weight_eq (i j p : BitVec 32) (l : Fin 1024) :
    weight i j p l = if inSpan i j l = 1#1 ∧ IntOp.cmpi .slt p i = 1#1 then (1 : EReal) else 0 :=
  sitofp_andi_bits _ _

/-- For a vocabulary index `t`, the scatter column of position `l` is `v < 50000` exactly when `l` is in the span and
    `t` is `v`. -/
theorem slotWord_toInt_eq_iff (i j t : BitVec 32) (l : Fin 1024) (ht : t.toNat < 50000) (v : Fin 50000) :
    (slotWord i j t l).toInt = (v.val : Int) ↔ inSpan i j l = 1#1 ∧ t.toNat = v.val := by
  have htI : t.toInt = (t.toNat : Int) := StableHlo.Predicate.toInt_eq_toNat_of_lt (by omega)
  unfold slotWord
  by_cases h : inSpan i j l = 1#1
  · -- in the span the column is the token itself, which is not negative
    have hn : IntOp.cmpi .slt t 0#32 = 0#1 := by
      apply ValueIdx.eq_zero_of_ne_one
      unfold IntOp.cmpi
      rw [StableHlo.Predicate.ofBool_eq_one_iff, BitVec.slt_iff_toInt_lt, htI]
      simp
    rw [h, ValueIdx.select_one, hn, ValueIdx.select_zero, htI]
    exact ⟨fun e => ⟨rfl, Int.ofNat_inj.1 e⟩, fun e => congrArg _ e.2⟩
  · -- outside it is the extra slot, which no vocabulary index equals
    have hv := v.isLt
    rw [ValueIdx.eq_zero_of_ne_one h, ValueIdx.select_zero,
      show IntOp.cmpi .slt 50000#32 0#32 = 0#1 by decide, ValueIdx.select_zero,
      show (50000#32 : BitVec 32).toInt = 50000 by decide]
    exact ⟨fun e => by omega, fun e => absurd e.1 (by decide)⟩

/-- Under the decoded hypotheses the kernel's function of its region's arrays is the reference's function of the
    arguments. -/
theorem kernelOut_eq_referenceOut
    (ids : IVec ⟨2, ![16, 1024]⟩ 32) (sp : IVec ⟨3, ![16, 64, 2]⟩ 32)
    (W : FVec Ideal ⟨2, ![512, 50000]⟩ .f32) (bias : FVec Ideal ⟨1, ![512]⟩ .f32)
    (prev : IVec ⟨3, ![16, 1, 1024]⟩ 32) (emb : FVec Ideal ⟨3, ![16, 1024, 512]⟩ .bf16)
    (bias2 : FVec Ideal ⟨2, ![1, 512]⟩ .f32)
    (hids : ∀ (b : Fin 16) (l : Fin 1024), (ids (ix2 b l)).toNat < 50000)
    (hsp : ∀ (b : Fin 16) (s : Fin 64), 0 ≤ (sp (ix3 b s 0)).toInt)
    (hprev : ∀ (b : Fin 16) (l : Fin 1024) (i : BitVec 32), 0 ≤ i.toInt →
      (IntOp.cmpi .slt (prev (ix3 b 0 l)) i = 1#1 ↔
        ∀ l' : Fin 1024, l'.val < l.val → ids (ix2 b l') = ids (ix2 b l) → (l'.val : Int) < i.toInt))
    (hemb : ∀ (b : Fin 16) (l : Fin 1024) (d : Fin 512),
      emb (ix3 b l d) = W (ix2 d ⟨(ids (ix2 b l)).toNat, hids b l⟩))
    (hbias : ∀ d : Fin 512, bias2 (ix2 0 d) = bias (ix1 d)) :
    kernelOut sp prev emb bias2 = referenceOut ids sp W bias := by
  funext y
  obtain ⟨b, s, d, rfl⟩ : ∃ (b : Fin 16) (s : Fin 64) (d : Fin 512), y = ix3 b s d := ⟨y 0, y 1, y 2, eq_ix3 y⟩
  show (∑ l : Fin 1024, weight (sp (ix3 b s 0)) (sp (ix3 b s 1)) (prev (ix3 b 0 l)) l * emb (ix3 b l d))
        + bias2 (ix2 0 d)
      = (∑ v : Fin 50000,
          (if ∃ l : Fin 1024, (slotWord (sp (ix3 b s 0)) (sp (ix3 b s 1)) (ids (ix2 b l)) l).toInt = (v.val : Int)
            then (1 : EReal) else 0) * W (ix2 d v)) + bias (ix1 d)
  rw [hbias]
  refine congrArg (· + bias (ix1 d)) ?_
  generalize hi' : sp (ix3 b s 0) = i
  generalize sp (ix3 b s 1) = j
  have hi : 0 ≤ i.toInt := hi' ▸ hsp b s
  -- the token of position `l` as a vocabulary index
  let tok : Fin 1024 → Fin 50000 := fun l => ⟨(ids (ix2 b l)).toNat, hids b l⟩
  have hR : ∀ v : Fin 50000,
      (if ∃ l : Fin 1024, (slotWord i j (ids (ix2 b l)) l).toInt = (v.val : Int) then (1 : EReal) else 0) * W (ix2 d v)
        = if ∃ l, inSpan i j l = 1#1 ∧ tok l = v then W (ix2 d v) else 0 := by
    intro v
    have hiff : (∃ l : Fin 1024, (slotWord i j (ids (ix2 b l)) l).toInt = (v.val : Int))
        ↔ ∃ l, inSpan i j l = 1#1 ∧ tok l = v := by
      refine exists_congr fun l => ?_
      rw [slotWord_toInt_eq_iff i j _ l (hids b l) v]
      exact and_congr Iff.rfl ⟨fun h => Fin.ext h, fun h => congrArg Fin.val h⟩
    by_cases h : ∃ l, inSpan i j l = 1#1 ∧ tok l = v
    · rw [if_pos h, if_pos (hiff.2 h), one_mul]
    · rw [if_neg h, if_neg (fun h' => h (hiff.1 h')), zero_mul]
  have hL : ∀ l : Fin 1024, weight i j (prev (ix3 b 0 l)) l * emb (ix3 b l d)
      = if inSpan i j l = 1#1 ∧ ∀ l' : Fin 1024, l' < l → inSpan i j l' = 1#1 → tok l' ≠ tok l
          then W (ix2 d (tok l)) else 0 := by
    intro l
    rw [weight_eq, hemb b l d]
    have hiff : (inSpan i j l = 1#1 ∧ IntOp.cmpi .slt (prev (ix3 b 0 l)) i = 1#1)
        ↔ (inSpan i j l = 1#1 ∧ ∀ l' : Fin 1024, l' < l → inSpan i j l' = 1#1 → tok l' ≠ tok l) := by
      refine and_congr_right fun hl => ?_
      rw [hprev b l i hi]
      rw [inSpan_iff] at hl
      constructor
      · intro h l' hlt hl' heq
        rw [inSpan_iff] at hl'
        have e : (tok l').val = (tok l).val := congrArg Fin.val heq
        have := h l' hlt (BitVec.eq_of_toNat_eq e)
        omega
      · intro h l' hlt heq
        by_contra hge
        have hlt' : (l'.val : Int) < (l.val : Int) := by exact_mod_cast hlt
        have hl' : inSpan i j l' = 1#1 := by
          rw [inSpan_iff]; constructor <;> omega
        exact h l' hlt hl' (Fin.ext (congrArg BitVec.toNat heq))
    by_cases h : inSpan i j l = 1#1 ∧ ∀ l' : Fin 1024, l' < l → inSpan i j l' = 1#1 → tok l' ≠ tok l
    · rw [if_pos h, if_pos (hiff.2 h), one_mul]
    · rw [if_neg h, if_neg (fun h' => h (hiff.1 h')), zero_mul]
  rw [Finset.sum_congr rfl (fun l _ => hL l), Finset.sum_congr rfl (fun v _ => hR v)]
  exact (sum_present_eq_sum_first tok (fun l => inSpan i j l = 1#1) (fun v => W (ix2 d v))).symm

end Cert.Bow

end
-- ==== Proof.Claims.lean ====
/-
  The five conjuncts.

  The two kernel programs' frames hold for every input. The reference has no kernel: its frame is its run with the result
  dropped. The idealization rewrote nothing. For the value: the kernel's run ends with the result array at `kernelOut` of the
  four arrays its region reads; those are the span argument unchanged, the table of previous occurrences, the gathered
  weights and the bias row, each a host function of the arguments. The reference's run ends at `referenceOut` of the
  arguments. The precondition gives what joins them: token words are vocabulary indices and span words are non-negative.
-/
import proofs.«411660_j30631706755077_1_alg».proof.Defs
import proofs.«411660_j30631706755077_1_alg».proof.Proof.Gen.Kernel.Frame
import proofs.«411660_j30631706755077_1_alg».proof.Proof.Gen.Pre_finite_inputs
import proofs.«411660_j30631706755077_1_alg».proof.Proof.Gen.KernelIdeal.Frame
import proofs.«411660_j30631706755077_1_alg».proof.Proof.Gen.ReferenceIdeal.Run
import proofs.«411660_j30631706755077_1_alg».proof.Proof.Gen.ReferenceIdeal.Read
import proofs.«411660_j30631706755077_1_alg».proof.Proof.Blocks
import proofs.«411660_j30631706755077_1_alg».proof.Proof.KernelPrev
import proofs.«411660_j30631706755077_1_alg».proof.Proof.KernelEmb
import proofs.«411660_j30631706755077_1_alg».proof.Proof.RefValue
import proofs.«411660_j30631706755077_1_alg».proof.Proof.PreDecode
import proofs.«411660_j30631706755077_1_alg».proof.Proof.Bridge

noncomputable section

namespace Cert.Proof.Claims

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- Under the precondition the kernel's result function of the region's arrays is the reference's function of the
    arguments. -/
theorem result_eq (m : (ℓ : Loc nD τ sig) → Buf (Elt Ideal) ℓ) (hpre : Cert.Pre_KernelIdeal m) (c : Dev nD) :
    Cert.Bow.Kernel.result m c
      = Cert.Bow.referenceOut (m ((c : Thread nD τ).loc main_arg0)) (m ((c : Thread nD τ).loc main_arg1))
          (m ((c : Thread nD τ).loc main_arg2)) (m ((c : Thread nD τ).loc main_arg3)) := by
  have hids := Cert.Bow.ids_lt _ _ _ _ (hpre c)
  have hsp := Cert.Bow.span_nonneg _ _ _ _ (hpre c)
  show Cert.Bow.kernelOut (V m c main_arg1) (V m c main_v15) (V m c main_v18) (V m c main_v19) = _
  rw [V_main_arg1 m c]
  refine Cert.Bow.kernelOut_eq_referenceOut _ _ _ _ _ _ _ hids (fun b s => hsp b s 0) (fun b l i hi => ?_)
    (fun b l d => ?_) (fun d => Cert.Bow.Kernel.V_bias m c d)
  · rw [Cert.Bow.Kernel.V_prev m c]
    exact Cert.Bow.Kernel.prevTable_slt_iff _ b l i hi
  · rw [Cert.Bow.Kernel.V_emb m c]
    exact Cert.Bow.Kernel.embTable_apply _ _ b l d (hids b l)

theorem algebraic : Cert.algebraic_KernelIdeal_ReferenceIdeal := by
  intro m ρ m' ρ' hpre hagree
  refine ⟨fun c => Cert.Bow.Kernel.result m c, Cert.Bow.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.Bow.Reference.reference_value,
    (hagree c).1, (hagree c).2.1, (hagree c).2.2.1, (hagree c).2.2.2]
  exact (result_eq m hpre c).symm

end Cert.Proof.Claims

end
-- ==== Proof.lean ====
/- The certificate's claim, assembled: the stated facts' witnesses, then the five conjuncts proved in Proof/Claims.lean
   (the two kernel frames, the reference's frame, the empty idealization ledger, and the equality of results over the
   extended reals under the precondition: finite floats, token words in the vocabulary, span words non-negative). -/
import proofs.«411660_j30631706755077_1_alg».proof.Defs
import proofs.«411660_j30631706755077_1_alg».proof.Proof.Gen.Kernel
import proofs.«411660_j30631706755077_1_alg».proof.Proof.Gen.Kernel.Skeleton
import proofs.«411660_j30631706755077_1_alg».proof.Proof.Gen.Kernel.Launch
import proofs.«411660_j30631706755077_1_alg».proof.Proof.Gen.Kernel.Points
import proofs.«411660_j30631706755077_1_alg».proof.Proof.Gen.Kernel.Frame
import proofs.«411660_j30631706755077_1_alg».proof.Proof.Gen.KernelIdeal
import proofs.«411660_j30631706755077_1_alg».proof.Proof.Gen.KernelIdeal.Skeleton
import proofs.«411660_j30631706755077_1_alg».proof.Proof.Gen.KernelIdeal.Launch
import proofs.«411660_j30631706755077_1_alg».proof.Proof.Gen.KernelIdeal.Points
import proofs.«411660_j30631706755077_1_alg».proof.Proof.Gen.KernelIdeal.Frame
import proofs.«411660_j30631706755077_1_alg».proof.Proof.Gen.ReferenceIdeal
import proofs.«411660_j30631706755077_1_alg».proof.Proof.Gen.Pre_finite_inputs
import proofs.«411660_j30631706755077_1_alg».proof.Proof.Gen.KernelIdeal.Value
import proofs.«411660_j30631706755077_1_alg».proof.Proof.Gen.ReferenceIdeal.Run
import proofs.«411660_j30631706755077_1_alg».proof.Proof.Gen.ReferenceIdeal.Read
import proofs.«411660_j30631706755077_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_kernel, Claims.frame_kernelIdeal, Claims.frame_referenceIdeal, Claims.preserves, Claims.algebraic⟩

end Cert.Proof

end
